-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "fold_c_8192_11863283" .f32 0x3A3504F3#32 ((8192 / 11863283 : ℝ) : EReal)
  ∧ IdealRules.named_const.Statement Cert.KernelIdeal.κ "fold_c_8192_11863283" .f32 0x3A3504F3#32 ((8192 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S3072 : Shape := ⟨1, ![3072]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x2048x1024 .f32) (main_arg1 : FVec F S3072x1024 .f32) (main_arg2 : FVec F S3072 .f32) (main_arg3 : FVec F S1024 .f32) (main_arg4 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8x2048x1024 : Shape := ⟨3, ![8, 2048, 1024]⟩
abbrev S3072x1024 : Shape := ⟨2, ![3072, 1024]⟩
abbrev S3072 : Shape := ⟨1, ![3072]⟩
abbrev S1024 : Shape := ⟨1, ![1024]⟩
abbrev S16384x1024 : Shape := ⟨2, ![16384, 1024]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x1024 : Shape := ⟨2, ![1, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x3072, .f32⟩
  | .hbm, ⟨7, _⟩ => ⟨S3072x1024, .bf16⟩
  | .hbm, ⟨8, _⟩ => ⟨S16384x3072, .bf16⟩
  | .hbm, ⟨9, _⟩ => ⟨S8x2048x3072, .bf16⟩
  | .hbm, ⟨10, _⟩ => ⟨S1x1024, .f32⟩
  | .hbm, ⟨11, _⟩ => ⟨S1x1024, .f32⟩
  | .hbm, ⟨12, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x2048x1024_S16384x1024 : S8x2048x1024.ShapeCasts S16384x1024
  shapeCasts_S3072_S1x3072 : S3072.ShapeCasts S1x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d0_w32 : S512x512.Iotas .tc 32 [0]
  iota_S512x512_d1_w32 : S512x512.Iotas .tc 32 [1]
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S3072x1024_S512x3072_1_1_0_0_n_n_wf : DotDims.WF S512x1024 S3072x1024 S512x3072 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .bf16 = 32 ∨ (Rect.block (s := S16384x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x3072.size a
  hwx1_0 : ∀ i : grid1.Coords, EltTy.bits .bf16 = 32 ∨ (Rect.block (s := S8x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x3072.size a
  hwx1_1 : ∀ i : grid1.Coords, EltTy.bits .bf16 = 32 ∨ (Rect.block (s := S8x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x3072.size a
  hwx1_2 : ∀ i : grid1.Coords, EltTy.bits .bf16 = 32 ∨ (Rect.block (s := S8x2048x3072) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x2048x1024.size a
  hwx1_5 : ∀ i : grid1.Coords, EltTy.bits .f32 = 32 ∨ (Rect.block (s := S8x2048x1024) S1x512x1024.size (cc1_transform_5 i) (hinb1_5 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S3072 : Shape := ⟨1, ![3072]⟩
abbrev S1024 : Shape := ⟨1, ![1024]⟩
abbrev S8x2048x3072 : Shape := ⟨3, ![8, 2048, 3072]⟩
abbrev S1x1x3072 : Shape := ⟨3, ![1, 1, 3072]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S1024, .f32⟩
  | .hbm, ⟨4, _⟩ => ⟨S1024, .f32⟩
  | .hbm, ⟨5, _⟩ => ⟨S8x2048x3072, .f32⟩
  | .hbm, ⟨6, _⟩ => ⟨S1x1x3072, .f32⟩
  | .hbm, ⟨7, _⟩ => ⟨S8x2048x3072, .f32⟩
  | .hbm, ⟨8, _⟩ => ⟨S8x2048x3072, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S2048x2048, .f32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S1x2048x2048, .f32⟩
  | .hbm, ⟨28, _⟩ => ⟨S8x2048x2048, .f32⟩
  | .hbm, ⟨29, _⟩ => ⟨S8x2048x2048, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1x1x1024, .f32⟩
  | .hbm, ⟨58, _⟩ => ⟨S8x2048x1024, .f32⟩
  | .hbm, ⟨59, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_cst : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  slices_S8x2048x3072_S8x2048x1024_0_0_0 : S8x2048x3072.Slices ![0, 0, 0] S8x2048x1024
  slices_S8x2048x3072_S8x2048x1024_0_0_1024 : S8x2048x3072.Slices ![0, 0, 1024] S8x2048x1024
  slices_S8x2048x3072_S8x2048x1024_0_0_2048 : S8x2048x3072.Slices ![0, 0, 2048] S8x2048x1024
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S3072x1024_S8x2048x3072_2_1_01_0_n_n_wf : DotDims.WF S8x2048x1024 S3072x1024 S8x2048x3072 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.R0.lean ====
import proofs.«425932_j16990890623046_3_alg».proof.Proof.Gen.Kernel.Launch
import proofs.«425932_j16990890623046_3_alg».proof.Proof.Gen.Kernel.Skeleton
import proofs.«425932_j16990890623046_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of the projection kernel (pallas_call 0)

The projection kernel runs on a grid of 32 points. At each point it loads its three input windows whole — a
[512,1024] block of the rows, the whole [3072,1024] weight, the [1,3072] bias row —, loads the output window's
buffer (a value it never uses), and stores ONE [512,3072] payload over the whole output buffer. So what the body
leaves in the output buffer is the payload of the three blocks, and the inputs' buffers are as it found them. -/

section
-- the buffer contents when the region is entered
variable (V : (c : Dev nD) → (b : Ref sig .tc) → Buf (Elt F) ((c : Thread nD τ).loc b))

/-! ## The windows' blocks and the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` each input's buffer holds its
    block and the output's holds the payload of the three blocks; the invariant is the scoped rest and the generator
    register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (iblk0 V c 0 t) (iblk0 V c 1 t) (iblk0 V c 2 t) := by
  dsimp only [dat0]

/-! ## What the body finds in the inputs' buffers

An input window is never written by the body, so its current buffer holds the block its index map names at the
point — fetched at this point, or fetched earlier and kept while the block index stood still (the weight and the
bias are fetched at the first point only, and their index never moves). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

end

/-! ## The body's triple -/

/-- The offsets of every access of the body: zero on both axes. -/
theorem zeros2 : (![0, 0] : Fin 2 → Nat) = fun _ => 0 := funext fun a => by fin_cases a <;> rfl

/-- The rectangle of the body's one store: the whole output block, at offset zero. -/
abbrev r0_3 : Rect S512x3072 := Rect.unit (s := S512x3072) ![0, 0] S512x3072.size inb_S512x3072_S512x3072_0_0

/-- The one store covers the output buffer: every index lies in its rectangle. -/
theorem cover0_3 (p0 : Vec F S512x3072 .bf16) (y : S512x3072.Idx) :
    ∃ pc ∈ ([⟨r0_3, p0⟩] : List (View.Piece (Elt F) S512x3072 .bf16)), y ∈ pc.1.set :=
  ⟨⟨r0_3, p0⟩, List.mem_singleton_self _, View.mem_set_unit_zero (S := S512x3072) zeros2 inb_S512x3072_S512x3072_0_0 y⟩

set_option maxHeartbeats 1000000 in
/-- The kernel function on whole buffers — the inputs' reading `x0`, `x1`, `x2`, the output's anything — runs to the
    continuation with the inputs' as they were and the output's reading the payload of `x0`, `x1`, `x2`. Each load
    goes through the whole-shape rectangle at offset zero, so it reads the contents; the one store goes through the
    same rectangle of the output, so it covers the buffer and what is read back is its payload. -/
theorem sound_kernel0 (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store covers the buffer: what is read back is the one piece's payload,
  refine (View.read_writes_eq_canon _ _ _ (cover0_3 _)).trans ?_
  rw [View.canon_unit_zero (S := S512x3072) zeros2]
  -- and each load read its buffer's whole contents
  simp only [View.readAt_eq_ld, View.ld_unit_zero (S := S512x1024) zeros2, View.ld_unit_zero (S := S3072x1024) zeros2,
    View.ld_unit_zero (S := S1x3072) zeros2]

section
variable (V : (c : Dev nD) → (b : Ref sig .tc) → Buf (Elt F) ((c : Thread nD τ).loc b))

/-! ## The body obligation, at a generic point -/

/-- What the body is called with at point `t`: the invariant, the core's owed transfers, and each window's current
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies at the three blocks;
    the invariant and the owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1Body.lean ====
import proofs.«425932_j16990890623046_3_alg».proof.Proof.Gen.Kernel.Launch
import proofs.«425932_j16990890623046_3_alg».proof.Proof.Gen.Kernel.Skeleton
import proofs.«425932_j16990890623046_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body, from the point's blocks and what it held before. -/
def accStep (qi ki : Nat) (q k v : Vec F S1x512x1024 .bf16) (a : Vec F S512x1024 .f32) : Vec F S512x1024 .f32 :=
  if ki < qi then k1_pay2 q k v (if ki = 0 then k1_pay1 else a)
  else if ki = qi then k1_pay4 q k v (if ki = 0 then k1_pay1 else a)
  else (if ki = 0 then k1_pay1 else a)

/-- The output buffer after the body: written on the diagonal only. -/
def outStep (qi ki : Nat) (q k v : Vec F S1x512x1024 .bf16) (w s : Vec F S1x1024 .f32) (a : Vec F S512x1024 .f32) (d : Vec F S1x512x1024 .f32) : Vec F S1x512x1024 .f32 :=
  if ki = qi then k1_pay3 (k1_pay6 (accStep qi ki q k v a)) (k1_pay7 (accStep qi ki q k v a)) (Scalar.ofBits .f32 0x3727C5AC#32) w s else d

/-- The first condition as the kernel computes it: the k-block index is zero. -/
abbrev cnd1 (i : grid1.Coords) : BitVec 1 :=
  Scalar.cmpi .ne (Scalar.extui (Scalar.cmpi .eq (BitVec.ofNat 32 (i 2).val) 0#32) : BitVec 32) 0#32
/-- The second condition as the kernel computes it: the k-block index is below the q-block index. -/
abbrev cnd2 (i : grid1.Coords) : BitVec 1 :=
  Scalar.cmpi .ne (Scalar.extui (Scalar.cmpi .slt (BitVec.ofNat 32 (i 2).val) (BitVec.ofNat 32 (i 1).val)) : BitVec 32) 0#32

/-- On block indices below four the first condition holds exactly when the k-block index is zero. -/
theorem cnd1_word (n : Nat) (hn : n < 4) :
    Scalar.cmpi .ne (Scalar.extui (Scalar.cmpi .eq (BitVec.ofNat 32 n) 0#32) : BitVec 32) 0#32 = 1#1 ↔ n = 0 := by
  interval_cases n <;> decide
/-- On block indices below four the second condition holds exactly when the k-block index is the smaller. -/
theorem cnd2_word (n m : Nat) (hn : n < 4) (hm : m < 4) :
    Scalar.cmpi .ne (Scalar.extui (Scalar.cmpi .slt (BitVec.ofNat 32 n) (BitVec.ofNat 32 m)) : BitVec 32) 0#32 = 1#1 ↔ n < m := by
  interval_cases n <;> interval_cases m <;> decide
/-- On block indices below four the third condition holds exactly when the two indices agree. -/
theorem cnd3_word (n m : Nat) (hn : n < 4) (hm : m < 4) :
    Scalar.cmpi .ne (Scalar.extui (Scalar.cmpi .eq (BitVec.ofNat 32 n) (BitVec.ofNat 32 m)) : BitVec 32) 0#32 = 1#1 ↔ n = m := by
  interval_cases n <;> interval_cases m <;> decide

/-- The three conditions at a grid point, over its q-block coordinate `i 1` and k-block coordinate `i 2` (both below four). -/
theorem cnd1_iff (i : grid1.Coords) : cnd1 i = 1#1 ↔ (i 2).val = 0 := cnd1_word _ (i 2).isLt
theorem cnd2_iff (i : grid1.Coords) : cnd2 i = 1#1 ↔ (i 2).val < (i 1).val := cnd2_word _ _ (i 2).isLt (i 1).isLt
theorem cnd3_iff (i : grid1.Coords) : k1_cond3 i = 1#1 ↔ (i 2).val = (i 1).val := cnd3_word _ _ (i 2).isLt (i 1).isLt

/-- The zero offsets of a rank-2 and of a rank-3 whole-buffer access, as constant functions. -/
theorem hz2 : (![0, 0] : Fin 2 → Nat) = fun _ => 0 := by funext a; fin_cases a <;> rfl
theorem hz3 : (![0, 0, 0] : Fin 3 → Nat) = fun _ => 0 := by funext a; fin_cases a <;> rfl

/-- A buffer whose LAST store went through the whole-shape rectangle at zero offsets reads that store's payload,
    whatever was stored before and whatever it held. -/
theorem read_store_unit {κ : Kind} {sp : Space} {S : Shape} {e : EltTy} (vw : View sig κ sp S e) (f : vw.ty.Contents (Elt F))
    {off : Fin S.rank → Nat} (h : off = fun _ => 0) (inb : ∀ a, off a + S.size a ≤ S.size a) (p : S.Idx → Elt F e)
    (L : List (View.Piece (Elt F) S e)) :
    vw.read (Elt F) (vw.writes (Elt F) f ((⟨Rect.unit off S.size inb, p⟩ : View.Piece (Elt F) S e) :: L)) = p := by
  rw [View.read_writes_eq_canon _ _ _ (fun y => ⟨_, List.mem_cons_self .., View.mem_set_unit_zero h inb y⟩),
    View.canon_cons_unit_zero h inb]

/-- A whole-shape load after such a store reads the payload too. -/
theorem readCov_store_unit {κ : Kind} {sp : Space} {S : Shape} {e : EltTy} (vw : View sig κ sp S e)
    {off : Fin S.rank → Nat} (h : off = fun _ => 0) (inb : ∀ a, off a + S.size a ≤ S.size a) (p : S.Idx → Elt F e)
    (L : List (View.Piece (Elt F) S e)) :
    vw.readCov ((⟨Rect.unit off S.size inb, p⟩ : View.Piece (Elt F) S e) :: L) (Rect.unit off S.size inb).toLoadRect = p := by
  subst h
  rw [View.readCov_eq_canon_ld _ _ _ (fun y => ⟨_, List.mem_cons_self .., View.mem_set_unit_zero rfl inb y⟩),
    View.canon_cons_unit_zero rfl, View.ld_unit_zero rfl]

set_option maxHeartbeats 1000000 in
/-- The k-block index is zero and equals the q-block index: the accumulator is reset, then the diagonal block is added
    under its mask, read back and normalised into the output. -/
theorem run_A (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : cnd1 i = 1#1) (hc2 : ¬ cnd2 i = 1#1) (hc3 : k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (k1_pay3 (k1_pay6 (k1_pay4 q k v k1_pay1)) (k1_pay7 (k1_pay4 q k v k1_pay1)) (Scalar.ofBits .f32 0x3727C5AC#32) w s)
            ∗ owns (c : Thread nD τ) arg9 fullShare (k1_pay4 q k v k1_pay1)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [read_store_unit _ _ hz3]
    simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is zero and below the q-block index: the accumulator is reset, then the off-diagonal block is added;
    the output is not touched. -/
theorem run_B (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : cnd1 i = 1#1) (hc2 : cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (k1_pay2 q k v k1_pay1)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is positive and below the q-block index: the off-diagonal block is added to the accumulator as found;
    the output is not touched. -/
theorem run_C (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (k1_pay2 q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is positive and equals the q-block index: the diagonal block is added under its mask to the accumulator
    as found, read back and normalised into the output. -/
theorem run_D (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : ¬ cnd2 i = 1#1) (hc3 : k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (k1_pay3 (k1_pay6 (k1_pay4 q k v a)) (k1_pay7 (k1_pay4 q k v a)) (Scalar.ofBits .f32 0x3727C5AC#32) w s)
            ∗ owns (c : Thread nD τ) arg9 fullShare (k1_pay4 q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [read_store_unit _ _ hz3]
    simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is above the q-block index: no branch is taken and both buffers stay as found. -/
theorem run_E (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : ¬ cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

/-- The body of the second kernel at any grid point: the three conditions are decided from the two block coordinates
    (both below four), which leaves five reachable combinations; in each the accumulator and the output end at the
    step functions' values. -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (outStep (i 1).val (i 2).val q k v w s a d)
            ∗ owns (c : Thread nD τ) arg9 fullShare (accStep (i 1).val (i 2).val q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  have h1 := cnd1_iff i
  have h2 := cnd2_iff i
  have h3 := cnd3_iff i
  by_cases e0 : (i 2).val = 0
  · by_cases eq : (i 2).val = (i 1).val
    · have hlt : ¬ (i 2).val < (i 1).val := by omega
      have hacc : accStep (i 1).val (i 2).val q k v a = k1_pay4 q k v k1_pay1 := by
        unfold accStep; rw [if_neg hlt, if_pos eq, if_pos e0]
      have hout : outStep (i 1).val (i 2).val q k v w s a d
          = k1_pay3 (k1_pay6 (k1_pay4 q k v k1_pay1)) (k1_pay7 (k1_pay4 q k v k1_pay1)) (Scalar.ofBits .f32 0x3727C5AC#32) w s := by
        unfold outStep; rw [if_pos eq, hacc]
      rw [hout, hacc]
      exact run_A c E i arg3 harg3 arg4 harg4 arg5 harg5 arg6 harg6 arg7 harg7 arg8 harg8 arg9 harg9 (h1.2 e0) (fun h => hlt (h2.1 h)) (h3.2 eq) q k v w s d a K
    · have hlt : (i 2).val < (i 1).val := by omega
      have hacc : accStep (i 1).val (i 2).val q k v a = k1_pay2 q k v k1_pay1 := by
        unfold accStep; rw [if_pos hlt, if_pos e0]
      have hout : outStep (i 1).val (i 2).val q k v w s a d = d := by
        unfold outStep; rw [if_neg eq]
      rw [hout, hacc]
      exact run_B c E i arg3 harg3 arg4 harg4 arg5 harg5 arg6 harg6 arg7 harg7 arg8 harg8 arg9 harg9 (h1.2 e0) (h2.2 hlt) (fun h => eq (h3.1 h)) q k v w s d a K
  · by_cases hlt : (i 2).val < (i 1).val
    · have eq : ¬ (i 2).val = (i 1).val := by omega
      have hacc : accStep (i 1).val (i 2).val q k v a = k1_pay2 q k v a := by
        unfold accStep; rw [if_pos hlt, if_neg e0]
      have hout : outStep (i 1).val (i 2).val q k v w s a d = d := by
        unfold outStep; rw [if_neg eq]
      rw [hout, hacc]
      exact run_C c E i arg3 harg3 arg4 harg4 arg5 harg5 arg6 harg6 arg7 harg7 arg8 harg8 arg9 harg9 (fun h => e0 (h1.1 h)) (h2.2 hlt) (fun h => eq (h3.1 h)) q k v w s d a K
    · by_cases eq : (i 2).val = (i 1).val
      · have hacc : accStep (i 1).val (i 2).val q k v a = k1_pay4 q k v a := by
          unfold accStep; rw [if_neg hlt, if_pos eq, if_neg e0]
        have hout : outStep (i 1).val (i 2).val q k v w s a d
            = k1_pay3 (k1_pay6 (k1_pay4 q k v a)) (k1_pay7 (k1_pay4 q k v a)) (Scalar.ofBits .f32 0x3727C5AC#32) w s := by
          unfold outStep; rw [if_pos eq, hacc]
        rw [hout, hacc]
        exact run_D c E i arg3 harg3 arg4 harg4 arg5 harg5 arg6 harg6 arg7 harg7 arg8 harg8 arg9 harg9 (fun h => e0 (h1.1 h)) (fun h => hlt (h2.1 h)) (h3.2 eq) q k v w s d a K
      · have hacc : accStep (i 1).val (i 2).val q k v a = a := by
          unfold accStep; rw [if_neg hlt, if_neg eq, if_neg e0]
        have hout : outStep (i 1).val (i 2).val q k v w s a d = d := by
          unfold outStep; rw [if_neg eq]
        rw [hout, hacc]
        exact run_E c E i arg3 harg3 arg4 harg4 arg5 harg5 arg6 harg6 arg7 harg7 arg8 harg8 arg9 harg9 (fun h => e0 (h1.1 h)) (fun h => hlt (h2.1 h)) (fun h => eq (h3.1 h)) q k v w s d a K

end Cert.Kernel.Hand

end
-- ==== Proof.K.R1.lean ====
import proofs.«425932_j16990890623046_3_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q-block and the k-block of a point. -/
abbrev qiOf (t : Fin cfg1.N) : Nat := ((grid1.coords t) 1).val
abbrev kiOf (t : Fin cfg1.N) : Nat := ((grid1.coords t) 2).val

theorem qiOf_eq : ∀ t : Fin cfg1.N, qiOf t = (t.val / 4) % 4 :=
  (by decide +kernel : ∀ t : Fin grid1.N, ((grid1.coords t) 1).val = (t.val / 4) % 4)
theorem kiOf_eq : ∀ t : Fin cfg1.N, kiOf t = t.val % 4 :=
  (by decide +kernel : ∀ t : Fin grid1.N, ((grid1.coords t) 2).val = t.val % 4)

/-- The accumulator after the body at point `n`: the point's step from what the point before left (the first point of
    every run of k-blocks resets it, so what precedes a run never matters). -/
def accAfter (c : Dev nD) : (n : Nat) → (h : n < cfg1.N) → Vec F S512x1024 .f32
  | 0, h => accStep (qiOf ⟨0, h⟩) (kiOf ⟨0, h⟩) (iblk1 V c 0 ⟨0, h⟩) (iblk1 V c 1 ⟨0, h⟩) (iblk1 V c 2 ⟨0, h⟩) k1_pay1
  | n + 1, h => accStep (qiOf ⟨n + 1, h⟩) (kiOf ⟨n + 1, h⟩) (iblk1 V c 0 ⟨n + 1, h⟩) (iblk1 V c 1 ⟨n + 1, h⟩) (iblk1 V c 2 ⟨n + 1, h⟩)
      (accAfter c n (Nat.lt_of_succ_lt h))

/-- The diagonal point of the run of k-blocks that `t` lies in. -/
def tdiag (t : Fin cfg1.N) : Fin cfg1.N := ⟨4 * (t.val / 4) + (t.val / 4) % 4, by have hN : cfg1.N = 128 := N_1; have := t.isLt; omega⟩

/-- The normalised accumulator as point `u` leaves it. -/
def outOf (c : Dev nD) (u : Fin cfg1.N) : Vec F S1x512x1024 .f32 :=
  k1_pay3 (k1_pay6 (accAfter V c u.val u.isLt)) (k1_pay7 (accAfter V c u.val u.isLt))
    (Scalar.ofBits .f32 0x3727C5AC#32) (iblk1 V c 3 u) (iblk1 V c 4 u)

/-- What the output block's buffer holds from the diagonal point of a run on: the normalised accumulator of that point. -/
def outAt (c : Dev nD) (t : Fin cfg1.N) : Vec F S1x512x1024 .f32 := outOf V c (tdiag t)

/-! ## The invariant: the accumulator's contents, point by point -/

/-- The scoped buffers the second call neither stages nor uses: the first call's staging buffers, at some contents. -/
def stg0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The accumulator before point `t`: after the first point, what the point before left. -/
def scrAt (c : Dev nD) (t : Fin (cfg1.N + 1)) : sProp 𝕄 :=
  iprop(∃ a : Vec F S512x1024 .f32, ⌜∀ h : 0 < t.val, a = accAfter V c (t.val - 1) (by have := t.isLt; omega)⌝
    ∗ owns (c : Thread nD τ) (Memref.whole cc1_scratch0) fullShare a)

/-- The region's invariant before point `t`. -/
def Φ1 (c : Dev nD) (t : Fin (cfg1.N + 1)) : sProp 𝕄 :=
  iprop(stg0 (F := F) c ∗ scrAt V c t ∗ ∃ r, prngReg c r)

/-- The three windows on the projected array split its buffer three ways. -/
def q1 : Fin cfg1.W → PosShare TreeShare := fun w => match w with
  | ⟨0, _⟩ => fullShare.left
  | ⟨1, _⟩ => fullShare.right.left
  | ⟨2, _⟩ => fullShare.right.right
  | _ => fullShare

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := Φ1 V c t
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The output window: written on the diagonal, kept until its run of k-blocks ends -/

/-- The output window is idle exactly off the diagonal. -/
theorem idle1_5 : ∀ t : Fin cfg1.N, cfg1.idle 5 (grid1.coords t) = true ↔ t.val % 4 ≠ (t.val / 4) % 4 :=
  (by decide +kernel : ∀ t : Fin grid1.N, idle1 5 (grid1.coords t) = true ↔ t.val % 4 ≠ (t.val / 4) % 4)
/-- It is never fetched. -/
theorem fetch1_5 : ∀ t : Fin cfg1.N, (cfg1.win 5).fetch t = false :=
  (by decide +kernel : ∀ t : Fin grid1.N, win1_5.fetch t = false)

/-- Two points of one run of k-blocks have one diagonal point. -/
theorem tdiag_congr (t u : Fin cfg1.N) (h : t.val / 4 = u.val / 4) : tdiag t = tdiag u := by
  unfold tdiag; rw [Fin.mk.injEq, h]
theorem outAt_congr (c : Dev nD) (t u : Fin cfg1.N) (h : t.val / 4 = u.val / 4) : outAt V c t = outAt V c u := by
  unfold outAt; rw [tdiag_congr t u h]
/-- On the diagonal a point is its own diagonal point. -/
theorem tdiag_self (t : Fin cfg1.N) (h : t.val % 4 = (t.val / 4) % 4) : tdiag t = t := by
  unfold tdiag; apply Fin.ext; show 4 * (t.val / 4) + (t.val / 4) % 4 = t.val; omega

/-- Inside a run, past its first point, the output's buffer holds what the point before left: what that point found if
    it was off the diagonal, the normalised accumulator if it was the diagonal point. -/
theorem before1_5_step (c : Dev nD) (t : Fin cfg1.N) (ht : t.val % 4 ≠ 0) (d) :
    (dat1 V c).before 5 t d
      = if (t.val - 1) % 4 ≠ ((t.val - 1) / 4) % 4 then (dat1 V c).before 5 ⟨t.val - 1, by have := t.isLt; omega⟩ d
        else outAt V c ⟨t.val - 1, by have := t.isLt; omega⟩ := by
  have hpos : t.val ≠ 0 := by omega
  rw [Dat.before_of_pos _ 5 t hpos (fetch1_5 t) d]
  have hfl : (cfg1.win 5).flush ⟨t.val - 1, Nat.lt_of_le_of_lt (Nat.sub_le _ _) t.isLt⟩ = false := by
    cases h : (cfg1.win 5).flush ⟨t.val - 1, Nat.lt_of_le_of_lt (Nat.sub_le _ _) t.isLt⟩
    · rfl
    · have := (flush1_5 _).mp h; simp only at this; omega
  rw [hfl, if_neg Bool.false_ne_true]
  unfold Dat.left
  by_cases hi : (t.val - 1) % 4 ≠ ((t.val - 1) / 4) % 4
  · rw [if_pos hi, (idle1_5 ⟨t.val - 1, _⟩).mpr hi]
  · rw [if_neg hi]
    have : cfg1.idle 5 (grid1.coords ⟨t.val - 1, Nat.lt_of_le_of_lt (Nat.sub_le _ _) t.isLt⟩) = false := by
      cases h : cfg1.idle 5 (grid1.coords ⟨t.val - 1, Nat.lt_of_le_of_lt (Nat.sub_le _ _) t.isLt⟩)
      · rfl
      · exact absurd ((idle1_5 _).mp h) hi
    rw [this]
    show (dat1 V c).after 5 _ = _
    rw [after1_5]

/-- At the last point of a run whose diagonal point came earlier the output's buffer still holds the normalised
    accumulator: every point after the diagonal leaves it as found. -/
theorem before1_5_past (c : Dev nD) (d) : ∀ (k : Nat) (t : Fin cfg1.N), t.val % 4 = k → (t.val / 4) % 4 < k →
    (dat1 V c).before 5 t d = outAt V c t := by
  intro k
  induction k with
  | zero => intro t _ h; omega
  | succ k ih =>
    intro t hk hq
    have hN : cfg1.N = 128 := N_1
    have htl := t.isLt
    rw [before1_5_step V c t (by omega) d]
    by_cases hi : (t.val - 1) % 4 ≠ ((t.val - 1) / 4) % 4
    · rw [if_pos hi, ih ⟨t.val - 1, by omega⟩ (by show (t.val - 1) % 4 = k; omega) (by show ((t.val - 1) / 4) % 4 < k; omega)]
      exact outAt_congr V c _ _ (by show (t.val - 1) / 4 = t.val / 4; omega)
    · rw [if_neg hi]
      exact outAt_congr V c _ _ (by show (t.val - 1) / 4 = t.val / 4; omega)

/-- A reset point's step does not read what the accumulator held. -/
theorem accStep_reset (qi : Nat) (q k v : Vec F S1x512x1024 .bf16) (a a' : Vec F S512x1024 .f32) :
    accStep qi 0 q k v a = accStep qi 0 q k v a' := by
  unfold accStep; simp only [if_true]

/-- The body's step at point `t` from what the point before left is what point `t` leaves. -/
theorem accStep_eq (c : Dev nD) (t : Fin cfg1.N) (a : Vec F S512x1024 .f32)
    (ha : ∀ h : 0 < t.val, a = accAfter V c (t.val - 1) (by have := t.isLt; omega)) :
    accStep (qiOf t) (kiOf t) (iblk1 V c 0 t) (iblk1 V c 1 t) (iblk1 V c 2 t) a = accAfter V c t.val t.isLt := by
  obtain ⟨n, hn⟩ := t
  cases n with
  | zero =>
    have hk : kiOf (⟨0, hn⟩ : Fin cfg1.N) = 0 := by rw [kiOf_eq]; rfl
    show accStep _ (kiOf ⟨0, hn⟩) _ _ _ a = accStep _ (kiOf ⟨0, hn⟩) _ _ _ k1_pay1
    rw [hk]; exact accStep_reset _ _ _ _ _ _
  | succ n =>
    have := ha (Nat.succ_pos n)
    subst this
    rfl

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (iblk1 V c 3 t) := by
  unfold Dat.leavesExact; rw [liveAt1_3 t, after1_3]
theorem leaves1_4 (c : Dev nD) (t : Fin cfg1.N) : (dat1 V c).leavesExact 4 t = owns (c : Thread nD τ) (st1_4 t) fullShare (iblk1 V c 4 t) := by
  unfold Dat.leavesExact; rw [liveAt1_4 t, after1_4]

/-- The output's buffer after the body, whatever it held before (`X`), is what the obligation asks of it. -/
theorem leaves1_5 (c : Dev nD) (t : Fin cfg1.N) (a : Vec F S512x1024 .f32)
    (ha : ∀ h : 0 < t.val, a = accAfter V c (t.val - 1) (by have := t.isLt; omega)) (d) :
    owns (c : Thread nD τ) (st1_5 t) fullShare
        (outStep (qiOf t) (kiOf t) (iblk1 V c 0 t) (iblk1 V c 1 t) (iblk1 V c 2 t) (iblk1 V c 3 t) (iblk1 V c 4 t) a ((dat1 V c).before 5 t d))
      ⊢ ((dat1 V c).leavesExact 5 t : sProp 𝕄) := by
  have hN : cfg1.N = 128 := N_1
  have htl := t.isLt
  unfold Dat.leavesExact
  by_cases hi : t.val % 4 ≠ (t.val / 4) % 4
  · -- off the diagonal: the body leaves the buffer as found
    have hne : ¬ kiOf t = qiOf t := by rw [kiOf_eq, qiOf_eq]; exact hi
    rw [(idle1_5 t).mpr hi]
    unfold outStep; rw [if_neg hne]
    cases hf : (cfg1.win 5).flush t
    · dsimp only; iintro H; iexists d; iexact H
    · dsimp only
      have h3 := (flush1_5 t).mp hf
      rw [after1_5, before1_5_past V c d 3 t h3 (by omega)]
  · -- on the diagonal: the normalised accumulator
    have heq : kiOf t = qiOf t := by rw [kiOf_eq, qiOf_eq]; omega
    have hidle : cfg1.idle 5 (grid1.coords t) = false := by
      cases h : cfg1.idle 5 (grid1.coords t)
      · rfl
      · exact absurd ((idle1_5 t).mp h) hi
    rw [hidle]
    dsimp only
    unfold outStep; rw [if_pos heq, accStep_eq V c t a ha, after1_5]
    unfold outAt outOf
    rw [tdiag_self t (by omega)]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 1000000 in
/-- The body at any point: the inputs' buffers hold their blocks, the accumulator what the point before left; the
    kernel's triple applies; the accumulator then holds the point's step and the output's buffer what the obligation asks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [leaves1_0, leaves1_1, leaves1_2, leaves1_3, leaves1_4,
    show (dat1 V c).owesAt () t.succ = (dat1 V c).owesAt () t.castSucc from rfl,
    show (dat1 V c).Φ t.castSucc = Φ1 V c t.castSucc from rfl, show (dat1 V c).Φ t.succ = Φ1 V c t.succ from rfl]
  unfold Φ1 scrAt
  iintro ⟨⟨Hstg, ⟨%a, %ha, Hs⟩, Hp⟩, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) ((dat1 V c).before 5 t d5) a _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hstg Hs Hp]
  · isplitl [Hstg]; · iexact Hstg
    isplitl [Hs]
    · iexists _; isplitr
      · ipureintro; intro _
        exact accStep_eq V c t a ha
      · iexact Hs
    · iexact Hp
  isplitl [Ho]; · iexact Ho
  isplitl [H0]; · iexact H0
  isplitl [H1]; · iexact H1
  isplitl [H2]; · iexact H2
  isplitl [H3]; · iexact H3
  isplitl [H4]; · iexact H4
  iapply (leaves1_5 V c t a ha d5)
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«425932_j16990890623046_3_alg».proof.Proof.K.R0
import proofs.«425932_j16990890623046_3_alg».proof.Proof.K.R1
import proofs.«425932_j16990890623046_3_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the buffers' contents at every boundary -/

/-- The buffers as the first call finds them: the launch contents with the first stretch of host operations applied. -/
abbrev VA (c : Dev nD) (b : Ref sig .tc) : Buf (Elt F) ((c : Thread nD τ).loc b) := V1 m c b

/-- What the first call leaves in its output array. -/
def o2 (c : Dev nD) : Buf (Elt F) ((c : Thread nD τ).loc main_v3) := (dat0 (VA m) c).arrAt 3 cfg0.N

/-- The regions' results up to the first call's. -/
def outs2 : Outs (F := F) := fun _ r c => Function.update (fun r' : Ref sig .tc => m ((c : Thread nD τ).loc r')) main_v3 (o2 m c) r

/-- The buffers as the second call finds them. -/
abbrev VB (c : Dev nD) (b : Ref sig .tc) : Buf (Elt F) ((c : Thread nD τ).loc b) := V3 m (outs2 m) c b

/-- What the second call leaves in its output array. -/
def o4 (c : Dev nD) : Buf (Elt F) ((c : Thread nD τ).loc main_v7) := (dat1 (VB m) c).arrAt 5 cfg1.N

/-- The regions' results. -/
def outsF : Outs (F := F) := fun j r c =>
  if j = 2 then outs2 m j r c else Function.update (fun r' : Ref sig .tc => m ((c : Thread nD τ).loc r')) main_v7 (o4 m c) r

theorem outsF_2 (c : Dev nD) : outsF m 2 main_v3 c = o2 m c := by
  unfold outsF outs2; rw [if_pos rfl, Function.update_self]
theorem outsF_4 (c : Dev nD) : outsF m 4 main_v7 c = o4 m c := by
  unfold outsF; rw [if_neg (by decide), Function.update_self]
theorem outs2_2 (c : Dev nD) : outs2 m 2 main_v3 c = o2 m c := by
  unfold outs2; rw [Function.update_self]
theorem V2_outsF (c : Dev nD) : V2 m (outsF m) c = V2 m (outs2 m) c := by
  dsimp only [V2]; rw [outsF_2, outs2_2]
theorem V3_outsF (c : Dev nD) : V3 m (outsF m) c = V3 m (outs2 m) c := by
  show StableHlo.after hostOps1 (V2 m (outsF m) c) = StableHlo.after hostOps1 (V2 m (outs2 m) c)
  rw [V2_outsF]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The first call as a segment -/

/-- At the first call's exit each of its arrays holds what the pipeline leaves: the inputs as entered, the output its
    write-backs. -/
theorem hF0 (c : Dev nD) (w : Fin cfg0.W) :
    (pdats m 0 c).arrAt w cfg0.N = (fun b : Ref sig .tc => V2 m (outsF m) c b) (Pipeline.arrRef spec0 w) :=
  match w with
  | ⟨0, _⟩ => (((dat0 (VA m) c).arrAt_in 0 rfl _).trans (A_eq0 (VA m) c 0)).trans (V2_of m (outsF m) c main_v0 (by decide)).symm
  | ⟨1, _⟩ => (((dat0 (VA m) c).arrAt_in 1 rfl _).trans (A_eq0 (VA m) c 1)).trans (V2_of m (outsF m) c main_v2 (by decide)).symm
  | ⟨2, _⟩ => (((dat0 (VA m) c).arrAt_in 2 rfl _).trans (A_eq0 (VA m) c 2)).trans (V2_of m (outsF m) c main_v1 (by decide)).symm
  | ⟨3, _⟩ => by
    show o2 m c = V2 m (outsF m) c main_v3
    dsimp only [V2]; rw [Function.update_self, outsF_2]

/-- and every other buffer what it held at entry. -/
theorem hrest0 (c : Dev nD) : ∀ b, b ∉ Finset.univ.image (Pipeline.arrRef spec0) →
    (fun b : Ref sig .tc => V2 m (outsF m) c b) b = VA m c b := fun b hb =>
  V2_of m (outsF m) c b (fun h => hb (by
    rw [List.mem_singleton] at h; subst h
    exact Finset.mem_image.mpr ⟨3, Finset.mem_univ _, rfl⟩))

set_option backward.isDefEq.respectTransparency.types false in
/-- The first call over the thread state: entered from every unscoped buffer at the contents after the first host
    stretch, left with the output array at what the pipeline wrote back. Its arrays are split out of the unscoped
    buffers and put back at the exit contents; the generator register passes through the invariant; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsF m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b : Ref sig .tc => V2 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment: three of its windows read one array -/

section
variable (V : (c : Dev nD) → (b : Ref sig .tc) → Buf (Elt F) ((c : Thread nD τ).loc b))

/-- The distinct buffers behind the second call's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7) ↦{fullShare} W main_v7)) := by
  unfold Pipeline.arrBufs
  exact bigSep_eq_bigSepL_of_eq [main_v4, main_v5, main_v6, main_v7] (by decide) (by decide) _

/-- The second call's arrays, window by window: the projected array's buffer at three shares that make the whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)
          ∗ (((c : Thread nD τ).loc main_v6) ↦{fullShare} G 4) ∗ (((c : Thread nD τ).loc main_v7) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- A buffer held whole splits into the three shares, and they join back. -/
theorem split3 (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl] <;> iassumption
theorem join3 (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption
end

/-- At the second call's exit each of its arrays holds what the pipeline leaves. -/
theorem arrAt1_in (c : Dev nD) (n : Nat) :
    (dat1 (VB m) c).arrAt 0 n = VB m c main_v4 ∧ (dat1 (VB m) c).arrAt 1 n = VB m c main_v4
      ∧ (dat1 (VB m) c).arrAt 2 n = VB m c main_v4 ∧ (dat1 (VB m) c).arrAt 3 n = VB m c main_v5
      ∧ (dat1 (VB m) c).arrAt 4 n = VB m c main_v6 :=
  ⟨((dat1 (VB m) c).arrAt_in 0 rfl _).trans (A_eq1 (VB m) c 0), ((dat1 (VB m) c).arrAt_in 1 rfl _).trans (A_eq1 (VB m) c 1),
    ((dat1 (VB m) c).arrAt_in 2 rfl _).trans (A_eq1 (VB m) c 2), ((dat1 (VB m) c).arrAt_in 3 rfl _).trans (A_eq1 (VB m) c 3),
    ((dat1 (VB m) c).arrAt_in 4 rfl _).trans (A_eq1 (VB m) c 4)⟩

/-- The unscoped buffers split into the buffers behind the second call's arrays and the rest. -/
theorem held1_eq (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b : Ref sig .tc => W b)
          ∗ Pipeline.unscopedRest (Ix := Unit) (Name := ℕ) (U := UR sig nD τ) (Lvl := ℕ) spec1 c (fun b : Ref sig .tc => W b)) := by
  rw [← Pipeline.unscopedBufs_held]
  exact Pipeline.unscopedBufs_split₀ cfgs 1 winFacts₀1.arr_unscoped c _

/-- Off the result buffer the last valuation is the one the second call was entered from. -/
theorem rest1_eq (c : Dev nD) :
    (Pipeline.unscopedRest (Ix := Unit) (Name := ℕ) (U := UR sig nD τ) (Lvl := ℕ) spec1 c (fun b : Ref sig .tc => V4 m (outsF m) c b) : sProp 𝕄)
      = Pipeline.unscopedRest (Ix := Unit) (Name := ℕ) (U := UR sig nD τ) (Lvl := ℕ) spec1 c (VB m c) := by
  unfold Pipeline.unscopedRest
  refine bigSep_congr fun b hb => ?_
  have hb' : b ∉ Finset.univ.image (Pipeline.arrRef spec1) := (Finset.mem_sdiff.mp hb).2
  have hne : b ∉ ([main_v7] : List (Ref sig .tc)) := fun h => hb' (by
    rw [List.mem_singleton] at h; subst h
    exact Finset.mem_image.mpr ⟨5, Finset.mem_univ _, rfl⟩)
  dsimp only
  rw [V4_of m (outsF m) c b hne, V3_outsF]

/-- The scoped buffers the second call does not stage: the first call's staging buffers and the accumulator. -/
theorem scoped1_split (c : Dev nD) :
    (Pipeline.scopedRest (Ix := Unit) (Name := ℕ) (U := UR sig nD τ) (Lvl := ℕ) (Val := Elt F) spec1 c : sProp 𝕄)
      ⊢ iprop(stg0 (F := F) c ∗ ∃ f : Buf (Elt F) ((c : Thread nD τ).loc cc1_scratch0), ((c : Thread nD τ).loc cc1_scratch0) ↦{fullShare} f) := by
  rw [scopedRest1_eq]; unfold stg0
  iintro ⟨H0, H1, H2, H3, H4, H5, Hs⟩
  isplitl [H0 H1 H2 H3 H4 H5]
  · isplitl [H0]; · iexact H0
    isplitl [H1]; · iexact H1
    isplitl [H2]; · iexact H2
    isplitl [H3]; · iexact H3
    isplitl [H4]; · iexact H4
    iexact H5
  iexact Hs
theorem scoped1_join (c : Dev nD) :
    iprop(stg0 (F := F) c ∗ ∃ f : Buf (Elt F) ((c : Thread nD τ).loc cc1_scratch0), ((c : Thread nD τ).loc cc1_scratch0) ↦{fullShare} f)
      ⊢ (Pipeline.scopedRest (Ix := Unit) (Name := ℕ) (U := UR sig nD τ) (Lvl := ℕ) (Val := Elt F) spec1 c : sProp 𝕄) := by
  rw [scopedRest1_eq]; unfold stg0
  iintro ⟨⟨H0, H1, H2, H3, H4, H5⟩, Hs⟩
  isplitl [H0]; · iexact H0
  isplitl [H1]; · iexact H1
  isplitl [H2]; · iexact H2
  isplitl [H3]; · iexact H3
  isplitl [H4]; · iexact H4
  isplitl [H5]; · iexact H5
  iexact Hs

set_option backward.isDefEq.respectTransparency.types false in
/-- The second call over the thread state: entered from every unscoped buffer at the contents after the second host
    stretch, left with the result buffer at what the pipeline wrote back. The projected array's buffer is split three
    ways among the windows that read it and joined again at the exit; the accumulator enters the invariant at whatever it
    holds; the generator register passes through; nothing is owed. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V3 m (outsF m) c) ∗ R c)
  post c := iprop(StableHlo.held (c : Thread nD τ) (Pipeline.ucRefs τ sig) (V4 m (outsF m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V3_outsF, held1_eq, arrBufs1_eq, show pdats m 1 c = dat1 (VB m) c from rfl, arrays1_eq]
    iintro ⟨Hpre, -, -⟩
    icases Hpre with ⟨⟨⟨H4, H5, H6, H7⟩, Hrest⟩, Hp, HO⟩
    ihave H4' := (split3 _ _) $$ H4
    icases H4' with ⟨Ha, Hb, Hc⟩
    imodintro
    isplitl [Ha Hb Hc H5 H6 H7]
    · isplitl [Ha]; · iexact Ha
      isplitl [Hb]; · iexact Hb
      isplitl [Hc]; · iexact Hc
      isplitl [H5]; · iexact H5
      isplitl [H6]; · iexact H6
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (VB m) c 0 from rfl]; unfold Φ1 scrAt
    iintro ⟨Hp, -, Hr⟩
    ihave Hr' := (scoped1_split c) $$ Hr
    icases Hr' with ⟨Hstg, ⟨%f, Hs⟩⟩
    isplitl [Hstg]; · iexact Hstg
    isplitl [Hs]
    · iexists f; isplitr
      · ipureintro; intro h; exact absurd h (Nat.lt_irrefl 0)
      · rw [owns_whole]; iexact Hs
    iexact Hp
  hout c := by
    rw [Pipeline.ownSems0_none, show (pdats m 1 c).Φ (Fin.last _) = Φ1 (VB m) c (Fin.last _) from rfl]; unfold Φ1 scrAt
    iintro ⟨Hstg, ⟨%a, -, Hs⟩, Hp⟩
    isplitl [Hp]; · iexact Hp
    isplitr; · iempintro
    iapply (scoped1_join c)
    isplitl [Hstg]; · iexact Hstg
    iexists a
    iapply (Entails.of_eq (owns_whole (c : Thread nD τ) cc1_scratch0 fullShare a))
    iexact Hs
  hexit c := by
    obtain ⟨e0, e1, e2, e3, e4⟩ := arrAt1_in m c (Pipeline.pin (pcfgs (F := F)) adm 1).N
    rw [held1_eq, arrBufs1_eq, rest1_eq, show pdats m 1 c = dat1 (VB m) c from rfl, arrays1_eq, e0, e1, e2, e3, e4]
    iintro ⟨⟨Ha, Hb, Hc, H5, H6, H7⟩, HO, HY, Hrest⟩
    imodintro
    isplitl [Ha Hb Hc H5 H6 H7 Hrest]
    · isplitl [Ha Hb Hc H5 H6 H7]
      · isplitl [Ha Hb Hc]
        · rw [V4_of m (outsF m) c main_v4 (by decide), V3_outsF]
          iapply (join3 _ _); isplitl [Ha]; · iexact Ha
          isplitl [Hb] <;> iassumption
        isplitl [H5]; · rw [V4_of m (outsF m) c main_v5 (by decide), V3_outsF]; iexact H5
        isplitl [H6]; · rw [V4_of m (outsF m) c main_v6 (by decide), V3_outsF]; iexact H6
        rw [V4_main_v7, outsF_4]; iexact H7
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; every argument ends as
    launched; the result buffer ends holding what the second call's pipeline wrote back. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = o4 m c) := by
  have h := run_cond m (Ix := Unit) (U := UR sig nD τ) (Lvl := ℕ) emb₁ () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)
  refine (θ_run defs _ _).mono (fun r hr c => ?_) h
  obtain ⟨h0, h1, h2, h3, h4, h7⟩ := hr c
  exact ⟨h0, h1, h2, h3, h4, h7.trans (outsF_4 m c)⟩

end Cert.Kernel.Hand

end
-- ==== Proof.KI.R0.lean ====
import proofs.«425932_j16990890623046_3_alg».proof.Proof.Gen.KernelIdeal.Launch
import proofs.«425932_j16990890623046_3_alg».proof.Proof.Gen.KernelIdeal.Skeleton
import proofs.«425932_j16990890623046_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The body obligation of the projection kernel (pallas_call 0)

The projection kernel runs on a grid of 32 points. At each point it loads its three input windows whole — a
[512,1024] block of the rows, the whole [3072,1024] weight, the [1,3072] bias row —, loads the output window's
buffer (a value it never uses), and stores ONE [512,3072] payload over the whole output buffer. So what the body
leaves in the output buffer is the payload of the three blocks, and the inputs' buffers are as it found them. -/

section
-- the buffer contents when the region is entered
variable (V : (c : Dev nD) → (b : Ref sig .tc) → Buf (Elt F) ((c : Thread nD τ).loc b))

/-! ## The windows' blocks and the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` each input's buffer holds its
    block and the output's holds the payload of the three blocks; the invariant is the scoped rest and the generator
    register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (iblk0 V c 0 t) (iblk0 V c 1 t) (iblk0 V c 2 t) := by
  dsimp only [dat0]

/-! ## What the body finds in the inputs' buffers

An input window is never written by the body, so its current buffer holds the block its index map names at the
point — fetched at this point, or fetched earlier and kept while the block index stood still (the weight and the
bias are fetched at the first point only, and their index never moves). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

end

/-! ## The body's triple -/

/-- The offsets of every access of the body: zero on both axes. -/
theorem zeros2 : (![0, 0] : Fin 2 → Nat) = fun _ => 0 := funext fun a => by fin_cases a <;> rfl

/-- The rectangle of the body's one store: the whole output block, at offset zero. -/
abbrev r0_3 : Rect S512x3072 := Rect.unit (s := S512x3072) ![0, 0] S512x3072.size inb_S512x3072_S512x3072_0_0

/-- The one store covers the output buffer: every index lies in its rectangle. -/
theorem cover0_3 (p0 : Vec F S512x3072 .bf16) (y : S512x3072.Idx) :
    ∃ pc ∈ ([⟨r0_3, p0⟩] : List (View.Piece (Elt F) S512x3072 .bf16)), y ∈ pc.1.set :=
  ⟨⟨r0_3, p0⟩, List.mem_singleton_self _, View.mem_set_unit_zero (S := S512x3072) zeros2 inb_S512x3072_S512x3072_0_0 y⟩

set_option maxHeartbeats 1000000 in
/-- The kernel function on whole buffers — the inputs' reading `x0`, `x1`, `x2`, the output's anything — runs to the
    continuation with the inputs' as they were and the output's reading the payload of `x0`, `x1`, `x2`. Each load
    goes through the whole-shape rectangle at offset zero, so it reads the contents; the one store goes through the
    same rectangle of the output, so it covers the buffer and what is read back is its payload. -/
theorem sound_kernel0 (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store covers the buffer: what is read back is the one piece's payload,
  refine (View.read_writes_eq_canon _ _ _ (cover0_3 _)).trans ?_
  rw [View.canon_unit_zero (S := S512x3072) zeros2]
  -- and each load read its buffer's whole contents
  simp only [View.readAt_eq_ld, View.ld_unit_zero (S := S512x1024) zeros2, View.ld_unit_zero (S := S3072x1024) zeros2,
    View.ld_unit_zero (S := S1x3072) zeros2]

section
variable (V : (c : Dev nD) → (b : Ref sig .tc) → Buf (Elt F) ((c : Thread nD τ).loc b))

/-! ## The body obligation, at a generic point -/

/-- What the body is called with at point `t`: the invariant, the core's owed transfers, and each window's current
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies at the three blocks;
    the invariant and the owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1Body.lean ====
import proofs.«425932_j16990890623046_3_alg».proof.Proof.Gen.KernelIdeal.Launch
import proofs.«425932_j16990890623046_3_alg».proof.Proof.Gen.KernelIdeal.Skeleton
import proofs.«425932_j16990890623046_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The accumulator after the body, from the point's blocks and what it held before. -/
def accStep (qi ki : Nat) (q k v : Vec F S1x512x1024 .bf16) (a : Vec F S512x1024 .f32) : Vec F S512x1024 .f32 :=
  if ki < qi then k1_pay2 q k v (if ki = 0 then k1_pay1 else a)
  else if ki = qi then k1_pay4 q k v (if ki = 0 then k1_pay1 else a)
  else (if ki = 0 then k1_pay1 else a)

/-- The output buffer after the body: written on the diagonal only. -/
def outStep (qi ki : Nat) (q k v : Vec F S1x512x1024 .bf16) (w s : Vec F S1x1024 .f32) (a : Vec F S512x1024 .f32) (d : Vec F S1x512x1024 .f32) : Vec F S1x512x1024 .f32 :=
  if ki = qi then k1_pay3 (k1_pay6 (accStep qi ki q k v a)) (k1_pay7 (accStep qi ki q k v a)) (Scalar.ofBits .f32 0x3727C5AC#32) w s else d

/-- The first condition as the kernel computes it: the k-block index is zero. -/
abbrev cnd1 (i : grid1.Coords) : BitVec 1 :=
  Scalar.cmpi .ne (Scalar.extui (Scalar.cmpi .eq (BitVec.ofNat 32 (i 2).val) 0#32) : BitVec 32) 0#32
/-- The second condition as the kernel computes it: the k-block index is below the q-block index. -/
abbrev cnd2 (i : grid1.Coords) : BitVec 1 :=
  Scalar.cmpi .ne (Scalar.extui (Scalar.cmpi .slt (BitVec.ofNat 32 (i 2).val) (BitVec.ofNat 32 (i 1).val)) : BitVec 32) 0#32

/-- On block indices below four the first condition holds exactly when the k-block index is zero. -/
theorem cnd1_word (n : Nat) (hn : n < 4) :
    Scalar.cmpi .ne (Scalar.extui (Scalar.cmpi .eq (BitVec.ofNat 32 n) 0#32) : BitVec 32) 0#32 = 1#1 ↔ n = 0 := by
  interval_cases n <;> decide
/-- On block indices below four the second condition holds exactly when the k-block index is the smaller. -/
theorem cnd2_word (n m : Nat) (hn : n < 4) (hm : m < 4) :
    Scalar.cmpi .ne (Scalar.extui (Scalar.cmpi .slt (BitVec.ofNat 32 n) (BitVec.ofNat 32 m)) : BitVec 32) 0#32 = 1#1 ↔ n < m := by
  interval_cases n <;> interval_cases m <;> decide
/-- On block indices below four the third condition holds exactly when the two indices agree. -/
theorem cnd3_word (n m : Nat) (hn : n < 4) (hm : m < 4) :
    Scalar.cmpi .ne (Scalar.extui (Scalar.cmpi .eq (BitVec.ofNat 32 n) (BitVec.ofNat 32 m)) : BitVec 32) 0#32 = 1#1 ↔ n = m := by
  interval_cases n <;> interval_cases m <;> decide

/-- The three conditions at a grid point, over its q-block coordinate `i 1` and k-block coordinate `i 2` (both below four). -/
theorem cnd1_iff (i : grid1.Coords) : cnd1 i = 1#1 ↔ (i 2).val = 0 := cnd1_word _ (i 2).isLt
theorem cnd2_iff (i : grid1.Coords) : cnd2 i = 1#1 ↔ (i 2).val < (i 1).val := cnd2_word _ _ (i 2).isLt (i 1).isLt
theorem cnd3_iff (i : grid1.Coords) : k1_cond3 i = 1#1 ↔ (i 2).val = (i 1).val := cnd3_word _ _ (i 2).isLt (i 1).isLt

/-- The zero offsets of a rank-2 and of a rank-3 whole-buffer access, as constant functions. -/
theorem hz2 : (![0, 0] : Fin 2 → Nat) = fun _ => 0 := by funext a; fin_cases a <;> rfl
theorem hz3 : (![0, 0, 0] : Fin 3 → Nat) = fun _ => 0 := by funext a; fin_cases a <;> rfl

/-- A buffer whose LAST store went through the whole-shape rectangle at zero offsets reads that store's payload,
    whatever was stored before and whatever it held. -/
theorem read_store_unit {κ : Kind} {sp : Space} {S : Shape} {e : EltTy} (vw : View sig κ sp S e) (f : vw.ty.Contents (Elt F))
    {off : Fin S.rank → Nat} (h : off = fun _ => 0) (inb : ∀ a, off a + S.size a ≤ S.size a) (p : S.Idx → Elt F e)
    (L : List (View.Piece (Elt F) S e)) :
    vw.read (Elt F) (vw.writes (Elt F) f ((⟨Rect.unit off S.size inb, p⟩ : View.Piece (Elt F) S e) :: L)) = p := by
  rw [View.read_writes_eq_canon _ _ _ (fun y => ⟨_, List.mem_cons_self .., View.mem_set_unit_zero h inb y⟩),
    View.canon_cons_unit_zero h inb]

/-- A whole-shape load after such a store reads the payload too. -/
theorem readCov_store_unit {κ : Kind} {sp : Space} {S : Shape} {e : EltTy} (vw : View sig κ sp S e)
    {off : Fin S.rank → Nat} (h : off = fun _ => 0) (inb : ∀ a, off a + S.size a ≤ S.size a) (p : S.Idx → Elt F e)
    (L : List (View.Piece (Elt F) S e)) :
    vw.readCov ((⟨Rect.unit off S.size inb, p⟩ : View.Piece (Elt F) S e) :: L) (Rect.unit off S.size inb).toLoadRect = p := by
  subst h
  rw [View.readCov_eq_canon_ld _ _ _ (fun y => ⟨_, List.mem_cons_self .., View.mem_set_unit_zero rfl inb y⟩),
    View.canon_cons_unit_zero rfl, View.ld_unit_zero rfl]

set_option maxHeartbeats 1000000 in
/-- The k-block index is zero and equals the q-block index: the accumulator is reset, then the diagonal block is added
    under its mask, read back and normalised into the output. -/
theorem run_A (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : cnd1 i = 1#1) (hc2 : ¬ cnd2 i = 1#1) (hc3 : k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (k1_pay3 (k1_pay6 (k1_pay4 q k v k1_pay1)) (k1_pay7 (k1_pay4 q k v k1_pay1)) (Scalar.ofBits .f32 0x3727C5AC#32) w s)
            ∗ owns (c : Thread nD τ) arg9 fullShare (k1_pay4 q k v k1_pay1)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [read_store_unit _ _ hz3]
    simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is zero and below the q-block index: the accumulator is reset, then the off-diagonal block is added;
    the output is not touched. -/
theorem run_B (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : cnd1 i = 1#1) (hc2 : cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (k1_pay2 q k v k1_pay1)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is positive and below the q-block index: the off-diagonal block is added to the accumulator as found;
    the output is not touched. -/
theorem run_C (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (k1_pay2 q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is positive and equals the q-block index: the diagonal block is added under its mask to the accumulator
    as found, read back and normalised into the output. -/
theorem run_D (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : ¬ cnd2 i = 1#1) (hc3 : k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (k1_pay3 (k1_pay6 (k1_pay4 q k v a)) (k1_pay7 (k1_pay4 q k v a)) (Scalar.ofBits .f32 0x3727C5AC#32) w s)
            ∗ owns (c : Thread nD τ) arg9 fullShare (k1_pay4 q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [read_store_unit _ _ hz3]
    simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]
  iexists _; isplitr; swap; · iexact H9
  ipureintro
  sl_unfold_words
  rw [read_store_unit _ _ hz2]
  simp only [View.readAt_eq_ld, harg3.read_unread, harg4.read_unread, harg5.read_unread, harg6.read_unread,
      harg7.read_unread, harg9.read_unread, View.ld_unit_zero (S := S1x512x1024) hz3, View.ld_unit_zero (S := S512x1024) hz2,
      View.ld_unit_zero (S := S1x1024) hz2, readCov_store_unit (S := S512x1024) _ hz2]

set_option maxHeartbeats 1000000 in
/-- The k-block index is above the q-block index: no branch is taken and both buffers stay as found. -/
theorem run_E (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (hc1 : ¬ cnd1 i = 1#1) (hc2 : ¬ cnd2 i = 1#1) (hc3 : ¬ k1_cond3 i = 1#1)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (d)
            ∗ owns (c : Thread nD τ) arg9 fullShare (a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  simp only [cc1__attn_ln_kernel_eq_skeleton]; unfold cc1__attn_ln_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

/-- The body of the second kernel at any grid point: the three conditions are decided from the two block coordinates
    (both below four), which leaves five reachable combinations; in each the accumulator and the output end at the
    step functions' values. -/
theorem sound_kernel1 (c : Dev nD) (E : Set ℕ) (i : grid1.Coords)
    (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x512x1024 .f32) (harg8 : arg8.IsWhole) (arg9 : Memref sig .tc .vmem S512x1024 .f32) (harg9 : arg9.IsWhole)
    (q k v : Vec F S1x512x1024 .bf16) (w s : Vec F S1x1024 .f32) (d : Vec F S1x512x1024 .f32) (a : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare w ∗ owns (c : Thread nD τ) arg7 fullShare s
        ∗ owns (c : Thread nD τ) arg8 fullShare d ∗ owns (c : Thread nD τ) arg9 fullShare a
        ∗ (iprop(owns (c : Thread nD τ) arg3 fullShare q ∗ owns (c : Thread nD τ) arg4 fullShare k ∗ owns (c : Thread nD τ) arg5 fullShare v
            ∗ owns (c : Thread nD τ) arg6 fullShare w ∗ owns (c : Thread nD τ) arg7 fullShare s
            ∗ owns (c : Thread nD τ) arg8 fullShare (outStep (i 1).val (i 2).val q k v w s a d)
            ∗ owns (c : Thread nD τ) arg9 fullShare (accStep (i 1).val (i 2).val q k v a)) -∗ K ⟨⟩))
      ⊢ wp frame (wpE (defs₀ (F := F)) Variants.none c none) E (cc1__attn_ln_kernel i arg3 harg3 arg4 harg4 arg5 harg5 arg6 harg6 arg7 harg7 arg8 harg8 arg9 harg9) K := by
  have h1 := cnd1_iff i
  have h2 := cnd2_iff i
  have h3 := cnd3_iff i
  by_cases e0 : (i 2).val = 0
  · by_cases eq : (i 2).val = (i 1).val
    · have hlt : ¬ (i 2).val < (i 1).val := by omega
      have hacc : accStep (i 1).val (i 2).val q k v a = k1_pay4 q k v k1_pay1 := by
        unfold accStep; rw [if_neg hlt, if_pos eq, if_pos e0]
      have hout : outStep (i 1).val (i 2).val q k v w s a d
          = k1_pay3 (k1_pay6 (k1_pay4 q k v k1_pay1)) (k1_pay7 (k1_pay4 q k v k1_pay1)) (Scalar.ofBits .f32 0x3727C5AC#32) w s := by
        unfold outStep; rw [if_pos eq, hacc]
      rw [hout, hacc]
      exact run_A c E i arg3 harg3 arg4 harg4 arg5 harg5 arg6 harg6 arg7 harg7 arg8 harg8 arg9 harg9 (h1.2 e0) (fun h => hlt (h2.1 h)) (h3.2 eq) q k v w s d a K
    · have hlt : (i 2).val < (i 1).val := by omega
      have hacc : accStep (i 1).val (i 2).val q k v a = k1_pay2 q k v k1_pay1 := by
        unfold accStep; rw [if_pos hlt, if_pos e0]
      have hout : outStep (i 1).val (i 2).val q k v w s a d = d := by
        unfold outStep; rw [if_neg eq]
      rw [hout, hacc]
      exact run_B c E i arg3 harg3 arg4 harg4 arg5 harg5 arg6 harg6 arg7 harg7 arg8 harg8 arg9 harg9 (h1.2 e0) (h2.2 hlt) (fun h => eq (h3.1 h)) q k v w s d a K
  · by_cases hlt : (i 2).val < (i 1).val
    · have eq : ¬ (i 2).val = (i 1).val := by omega
      have hacc : accStep (i 1).val (i 2).val q k v a = k1_pay2 q k v a := by
        unfold accStep; rw [if_pos hlt, if_neg e0]
      have hout : outStep (i 1).val (i 2).val q k v w s a d = d := by
        unfold outStep; rw [if_neg eq]
      rw [hout, hacc]
      exact run_C c E i arg3 harg3 arg4 harg4 arg5 harg5 arg6 harg6 arg7 harg7 arg8 harg8 arg9 harg9 (fun h => e0 (h1.1 h)) (h2.2 hlt) (fun h => eq (h3.1 h)) q k v w s d a K
    · by_cases eq : (i 2).val = (i 1).val
      · have hacc : accStep (i 1).val (i 2).val q k v a = k1_pay4 q k v a := by
          unfold accStep; rw [if_neg hlt, if_pos eq, if_neg e0]
        have hout : outStep (i 1).val (i 2).val q k v w s a d
            = k1_pay3 (k1_pay6 (k1_pay4 q k v a)) (k1_pay7 (k1_pay4 q k v a)) (Scalar.ofBits .f32 0x3727C5AC#32) w s := by
          unfold outStep; rw [if_pos eq, hacc]
        rw [hout, hacc]
        exact run_D c E i arg3 harg3 arg4 harg4 arg5 harg5 arg6 harg6 arg7 harg7 arg8 harg8 arg9 harg9 (fun h => e0 (h1.1 h)) (fun h => hlt (h2.1 h)) (h3.2 eq) q k v w s d a K
      · have hacc : accStep (i 1).val (i 2).val q k v a = a := by
          unfold accStep; rw [if_neg hlt, if_neg eq, if_neg e0]
        have hout : outStep (i 1).val (i 2).val q k v w s a d = d := by
          unfold outStep; rw [if_neg eq]
        rw [hout, hacc]
        exact run_E c E i arg3 harg3 arg4 harg4 arg5 harg5 arg6 harg6 arg7 harg7 arg8 harg8 arg9 harg9 (fun h => e0 (h1.1 h)) (fun h => hlt (h2.1 h)) (fun h => eq (h3.1 h)) q k v w s d a K

end Cert.KernelIdeal.Hand

end
-- ==== Proof.KI.R1.lean ====
import proofs.«425932_j16990890623046_3_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q-block and the k-block of a point. -/
abbrev qiOf (t : Fin cfg1.N) : Nat := ((grid1.coords t) 1).val
abbrev kiOf (t : Fin cfg1.N) : Nat := ((grid1.coords t) 2).val

theorem qiOf_eq : ∀ t : Fin cfg1.N, qiOf t = (t.val / 4) % 4 :=
  (by decide +kernel : ∀ t : Fin grid1.N, ((grid1.coords t) 1).val = (t.val / 4) % 4)
theorem kiOf_eq : ∀ t : Fin cfg1.N, kiOf t = t.val % 4 :=
  (by decide +kernel : ∀ t : Fin grid1.N, ((grid1.coords t) 2).val = t.val % 4)

/-- The accumulator after the body at point `n`: the point's step from what the point before left (the first point of
    every run of k-blocks resets it, so what precedes a run never matters). -/
def accAfter (c : Dev nD) : (n : Nat) → (h : n < cfg1.N) → Vec F S512x1024 .f32
  | 0, h => accStep (qiOf ⟨0, h⟩) (kiOf ⟨0, h⟩) (iblk1 V c 0 ⟨0, h⟩) (iblk1 V c 1 ⟨0, h⟩) (iblk1 V c 2 ⟨0, h⟩) k1_pay1
  | n + 1, h => accStep (qiOf ⟨n + 1, h⟩) (kiOf ⟨n + 1, h⟩) (iblk1 V c 0 ⟨n + 1, h⟩) (iblk1 V c 1 ⟨n + 1, h⟩) (iblk1 V c 2 ⟨n + 1, h⟩)
      (accAfter c n (Nat.lt_of_succ_lt h))

/-- The diagonal point of the run of k-blocks that `t` lies in. -/
def tdiag (t : Fin cfg1.N) : Fin cfg1.N := ⟨4 * (t.val / 4) + (t.val / 4) % 4, by have hN : cfg1.N = 128 := N_1; have := t.isLt; omega⟩

/-- The normalised accumulator as point `u` leaves it. -/
def outOf (c : Dev nD) (u : Fin cfg1.N) : Vec F S1x512x1024 .f32 :=
  k1_pay3 (k1_pay6 (accAfter V c u.val u.isLt)) (k1_pay7 (accAfter V c u.val u.isLt))
    (Scalar.ofBits .f32 0x3727C5AC#32) (iblk1 V c 3 u) (iblk1 V c 4 u)

/-- What the output block's buffer holds from the diagonal point of a run on: the normalised accumulator of that point. -/
def outAt (c : Dev nD) (t : Fin cfg1.N) : Vec F S1x512x1024 .f32 := outOf V c (tdiag t)

/-! ## The invariant: the accumulator's contents, point by point -/

/-- The scoped buffers the second call neither stages nor uses: the first call's staging buffers, at some contents. -/
def stg0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The accumulator before point `t`: after the first point, what the point before left. -/
def scrAt (c : Dev nD) (t : Fin (cfg1.N + 1)) : sProp 𝕄 :=
  iprop(∃ a : Vec F S512x1024 .f32, ⌜∀ h : 0 < t.val, a = accAfter V c (t.val - 1) (by have := t.isLt; omega)⌝
    ∗ owns (c : Thread nD τ) (Memref.whole cc1_scratch0) fullShare a)

/-- The region's invariant before point `t`. -/
def Φ1 (c : Dev nD) (t : Fin (cfg1.N + 1)) : sProp 𝕄 :=
  iprop(stg0 (F := F) c ∗ scrAt V c t ∗ ∃ r, prngReg c r)

/-- The three windows on the projected array split its buffer three ways. -/
def q1 : Fin cfg1.W → PosShare TreeShare := fun w => match w with
  | ⟨0, _⟩ => fullShare.left
  | ⟨1, _⟩ => fullShare.right.left
  | ⟨2, _⟩ => fullShare.right.right
  | _ => fullShare

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := Φ1 V c t
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The output window: written on the diagonal, kept until its run of k-blocks ends -/

/-- The output window is idle exactly off the diagonal. -/
theorem idle1_5 : ∀ t : Fin cfg1.N, cfg1.idle 5 (grid1.coords t) = true ↔ t.val % 4 ≠ (t.val / 4) % 4 :=
  (by decide +kernel : ∀ t : Fin grid1.N, idle1 5 (grid1.coords t) = true ↔ t.val % 4 ≠ (t.val / 4) % 4)
/-- It is never fetched. -/
theorem fetch1_5 : ∀ t : Fin cfg1.N, (cfg1.win 5).fetch t = false :=
  (by decide +kernel : ∀ t : Fin grid1.N, win1_5.fetch t = false)

/-- Two points of one run of k-blocks have one diagonal point. -/
theorem tdiag_congr (t u : Fin cfg1.N) (h : t.val / 4 = u.val / 4) : tdiag t = tdiag u := by
  unfold tdiag; rw [Fin.mk.injEq, h]
theorem outAt_congr (c : Dev nD) (t u : Fin cfg1.N) (h : t.val / 4 = u.val / 4) : outAt V c t = outAt V c u := by
  unfold outAt; rw [tdiag_congr t u h]
/-- On the diagonal a point is its own diagonal point. -/
theorem tdiag_self (t : Fin cfg1.N) (h : t.val % 4 = (t.val / 4) % 4) : tdiag t = t := by
  unfold tdiag; apply Fin.ext; show 4 * (t.val / 4) + (t.val / 4) % 4 = t.val; omega

/-- Inside a run, past its first point, the output's buffer holds what the point before left: what that point found if
    it was off the diagonal, the normalised accumulator if it was the diagonal point. -/
theorem before1_5_step (c : Dev nD) (t : Fin cfg1.N) (ht : t.val % 4 ≠ 0) (d) :
    (dat1 V c).before 5 t d
      = if (t.val - 1) % 4 ≠ ((t.val - 1) / 4) % 4 then (dat1 V c).before 5 ⟨t.val - 1, by have := t.isLt; omega⟩ d
        else outAt V c ⟨t.val - 1, by have := t.isLt; omega⟩ := by
  have hpos : t.val ≠ 0 := by omega
  rw [Dat.before_of_pos _ 5 t hpos (fetch1_5 t) d]
  have hfl : (cfg1.win 5).flush ⟨t.val - 1, Nat.lt_of_le_of_lt (Nat.sub_le _ _) t.isLt⟩ = false := by
    cases h : (cfg1.win 5).flush ⟨t.val - 1, Nat.lt_of_le_of_lt (Nat.sub_le _ _) t.isLt⟩
    · rfl
    · have := (flush1_5 _).mp h; simp only at this; omega
  rw [hfl, if_neg Bool.false_ne_true]
  unfold Dat.left
  by_cases hi : (t.val - 1) % 4 ≠ ((t.val - 1) / 4) % 4
  · rw [if_pos hi, (idle1_5 ⟨t.val - 1, _⟩).mpr hi]
  · rw [if_neg hi]
    have : cfg1.idle 5 (grid1.coords ⟨t.val - 1, Nat.lt_of_le_of_lt (Nat.sub_le _ _) t.isLt⟩) = false := by
      cases h : cfg1.idle 5 (grid1.coords ⟨t.val - 1, Nat.lt_of_le_of_lt (Nat.sub_le _ _) t.isLt⟩)
      · rfl
      · exact absurd ((idle1_5 _).mp h) hi
    rw [this]
    show (dat1 V c).after 5 _ = _
    rw [after1_5]

/-- At the last point of a run whose diagonal point came earlier the output's buffer still holds the normalised
    accumulator: every point after the diagonal leaves it as found. -/
theorem before1_5_past (c : Dev nD) (d) : ∀ (k : Nat) (t : Fin cfg1.N), t.val % 4 = k → (t.val / 4) % 4 < k →
    (dat1 V c).before 5 t d = outAt V c t := by
  intro k
  induction k with
  | zero => intro t _ h; omega
  | succ k ih =>
    intro t hk hq
    have hN : cfg1.N = 128 := N_1
    have htl := t.isLt
    rw [before1_5_step V c t (by omega) d]
    by_cases hi : (t.val - 1) % 4 ≠ ((t.val - 1) / 4) % 4
    · rw [if_pos hi, ih ⟨t.val - 1, by omega⟩ (by show (t.val - 1) % 4 = k; omega) (by show ((t.val - 1) / 4) % 4 < k; omega)]
      exact outAt_congr V c _ _ (by show (t.val - 1) / 4 = t.val / 4; omega)
    · rw [if_neg hi]
      exact outAt_congr V c _ _ (by show (t.val - 1) / 4 = t.val / 4; omega)

/-- A reset point's step does not read what the accumulator held. -/
theorem accStep_reset (qi : Nat) (q k v : Vec F S1x512x1024 .bf16) (a a' : Vec F S512x1024 .f32) :
    accStep qi 0 q k v a = accStep qi 0 q k v a' := by
  unfold accStep; simp only [if_true]

/-- The body's step at point `t` from what the point before left is what point `t` leaves. -/
theorem accStep_eq (c : Dev nD) (t : Fin cfg1.N) (a : Vec F S512x1024 .f32)
    (ha : ∀ h : 0 < t.val, a = accAfter V c (t.val - 1) (by have := t.isLt; omega)) :
    accStep (qiOf t) (kiOf t) (iblk1 V c 0 t) (iblk1 V c 1 t) (iblk1 V c 2 t) a = accAfter V c t.val t.isLt := by
  obtain ⟨n, hn⟩ := t
  cases n with
  | zero =>
    have hk : kiOf (⟨0, hn⟩ : Fin cfg1.N) = 0 := by rw [kiOf_eq]; rfl
    show accStep _ (kiOf ⟨0, hn⟩) _ _ _ a = accStep _ (kiOf ⟨0, hn⟩) _ _ _ k1_pay1
    rw [hk]; exact accStep_reset _ _ _ _ _ _
  | succ n =>
    have := ha (Nat.succ_pos n)
    subst this
    rfl

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (iblk1 V c 3 t) := by
  unfold Dat.leavesExact; rw [liveAt1_3 t, after1_3]
theorem leaves1_4 (c : Dev nD) (t : Fin cfg1.N) : (dat1 V c).leavesExact 4 t = owns (c : Thread nD τ) (st1_4 t) fullShare (iblk1 V c 4 t) := by
  unfold Dat.leavesExact; rw [liveAt1_4 t, after1_4]

/-- The output's buffer after the body, whatever it held before (`X`), is what the obligation asks of it. -/
theorem leaves1_5 (c : Dev nD) (t : Fin cfg1.N) (a : Vec F S512x1024 .f32)
    (ha : ∀ h : 0 < t.val, a = accAfter V c (t.val - 1) (by have := t.isLt; omega)) (d) :
    owns (c : Thread nD τ) (st1_5 t) fullShare
        (outStep (qiOf t) (kiOf t) (iblk1 V c 0 t) (iblk1 V c 1 t) (iblk1 V c 2 t) (iblk1 V c 3 t) (iblk1 V c 4 t) a ((dat1 V c).before 5 t d))
      ⊢ ((dat1 V c).leavesExact 5 t : sProp 𝕄) := by
  have hN : cfg1.N = 128 := N_1
  have htl := t.isLt
  unfold Dat.leavesExact
  by_cases hi : t.val % 4 ≠ (t.val / 4) % 4
  · -- off the diagonal: the body leaves the buffer as found
    have hne : ¬ kiOf t = qiOf t := by rw [kiOf_eq, qiOf_eq]; exact hi
    rw [(idle1_5 t).mpr hi]
    unfold outStep; rw [if_neg hne]
    cases hf : (cfg1.win 5).flush t
    · dsimp only; iintro H; iexists d; iexact H
    · dsimp only
      have h3 := (flush1_5 t).mp hf
      rw [after1_5, before1_5_past V c d 3 t h3 (by omega)]
  · -- on the diagonal: the normalised accumulator
    have heq : kiOf t = qiOf t := by rw [kiOf_eq, qiOf_eq]; omega
    have hidle : cfg1.idle 5 (grid1.coords t) = false := by
      cases h : cfg1.idle 5 (grid1.coords t)
      · rfl
      · exact absurd ((idle1_5 t).mp h) hi
    rw [hidle]
    dsimp only
    unfold outStep; rw [if_pos heq, accStep_eq V c t a ha, after1_5]
    unfold outAt outOf
    rw [tdiag_self t (by omega)]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 1000000 in
/-- The body at any point: the inputs' buffers hold their blocks, the accumulator what the point before left; the
    kernel's triple applies; the accumulator then holds the point's step and the output's buffer what the obligation asks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [leaves1_0, leaves1_1, leaves1_2, leaves1_3, leaves1_4,
    show (dat1 V c).owesAt () t.succ = (dat1 V c).owesAt () t.castSucc from rfl,
    show (dat1 V c).Φ t.castSucc = Φ1 V c t.castSucc from rfl, show (dat1 V c).Φ t.succ = Φ1 V c t.succ from rfl]
  unfold Φ1 scrAt
  iintro ⟨⟨Hstg, ⟨%a, %ha, Hs⟩, Hp⟩, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) ((dat1 V c).before 5 t d5) a _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [Hstg Hs Hp]
  · isplitl [Hstg]; · iexact Hstg
    isplitl [Hs]
    · iexists _; isplitr
      · ipureintro; intro _
        exact accStep_eq V c t a ha
      · iexact Hs
    · iexact Hp
  isplitl [Ho]; · iexact Ho
  isplitl [H0]; · iexact H0
  isplitl [H1]; · iexact H1
  isplitl [H2]; · iexact H2
  isplitl [H3]; · iexact H3
  isplitl [H4]; · iexact H4
  iapply (leaves1_5 V c t a ha d5)
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«425932_j16990890623046_3_alg».proof.Proof.KI.R0
import proofs.«425932_j16990890623046_3_alg».proof.Proof.KI.R1
import proofs.«425932_j16990890623046_3_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave, and the buffers' contents at every boundary -/

/-- The buffers as the first call finds them: the launch contents with the first stretch of host operations applied. -/
abbrev VA (c : Dev nD) (b : Ref sig .tc) : Buf (Elt F) ((c : Thread nD τ).loc b) := V1 m c b

/-- What the first call leaves in its output array. -/
def o2 (c : Dev nD) : Buf (Elt F) ((c : Thread nD τ).loc main_v3) := (dat0 (VA m) c).arrAt 3 cfg0.N

/-- The regions' results up to the first call's. -/
def outs2 : Outs (F := F) := fun _ r c => Function.update (fun r' : Ref sig .tc => m ((c : Thread nD τ).loc r')) main_v3 (o2 m c) r

/-- The buffers as the second call finds them. -/
abbrev VB (c : Dev nD) (b : Ref sig .tc) : Buf (Elt F) ((c : Thread nD τ).loc b) := V3 m (outs2 m) c b

/-- What the second call leaves in its output array. -/
def o4 (c : Dev nD) : Buf (Elt F) ((c : Thread nD τ).loc main_v7) := (dat1 (VB m) c).arrAt 5 cfg1.N

/-- The regions' results. -/
def outsF : Outs (F := F) := fun j r c =>
  if j = 2 then outs2 m j r c else Function.update (fun r' : Ref sig .tc => m ((c : Thread nD τ).loc r')) main_v7 (o4 m c) r

theorem outsF_2 (c : Dev nD) : outsF m 2 main_v3 c = o2 m c := by
  unfold outsF outs2; rw [if_pos rfl, Function.update_self]
theorem outsF_4 (c : Dev nD) : outsF m 4 main_v7 c = o4 m c := by
  unfold outsF; rw [if_neg (by decide), Function.update_self]
theorem outs2_2 (c : Dev nD) : outs2 m 2 main_v3 c = o2 m c := by
  unfold outs2; rw [Function.update_self]
theorem V2_outsF (c : Dev nD) : V2 m (outsF m) c = V2 m (outs2 m) c := by
  dsimp only [V2]; rw [outsF_2, outs2_2]
theorem V3_outsF (c : Dev nD) : V3 m (outsF m) c = V3 m (outs2 m) c := by
  show StableHlo.after hostOps1 (V2 m (outsF m) c) = StableHlo.after hostOps1 (V2 m (outs2 m) c)
  rw [V2_outsF]

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The first call as a segment -/

/-- At the first call's exit each of its arrays holds what the pipeline leaves: the inputs as entered, the output its
    write-backs. -/
theorem hF0 (c : Dev nD) (w : Fin cfg0.W) :
    (pdats m 0 c).arrAt w cfg0.N = (fun b : Ref sig .tc => V2 m (outsF m) c b) (Pipeline.arrRef spec0 w) :=
  match w with
  | ⟨0, _⟩ => (((dat0 (VA m) c).arrAt_in 0 rfl _).trans (A_eq0 (VA m) c 0)).trans (V2_of m (outsF m) c main_v0 (by decide)).symm
  | ⟨1, _⟩ => (((dat0 (VA m) c).arrAt_in 1 rfl _).trans (A_eq0 (VA m) c 1)).trans (V2_of m (outsF m) c main_v2 (by decide)).symm
  | ⟨2, _⟩ => (((dat0 (VA m) c).arrAt_in 2 rfl _).trans (A_eq0 (VA m) c 2)).trans (V2_of m (outsF m) c main_v1 (by decide)).symm
  | ⟨3, _⟩ => by
    show o2 m c = V2 m (outsF m) c main_v3
    dsimp only [V2]; rw [Function.update_self, outsF_2]

/-- and every other buffer what it held at entry. -/
theorem hrest0 (c : Dev nD) : ∀ b, b ∉ Finset.univ.image (Pipeline.arrRef spec0) →
    (fun b : Ref sig .tc => V2 m (outsF m) c b) b = VA m c b := fun b hb =>
  V2_of m (outsF m) c b (fun h => hb (by
    rw [List.mem_singleton] at h; subst h
    exact Finset.mem_image.mpr ⟨3, Finset.mem_univ _, rfl⟩))

set_option backward.isDefEq.respectTransparency.types false in
/-- The first call over the thread state: entered from every unscoped buffer at the contents after the first host
    stretch, left with the output array at what the pipeline wrote back. Its arrays are split out of the unscoped
    buffers and put back at the exit contents; the generator register passes through the invariant; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsF m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b : Ref sig .tc => V2 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment: three of its windows read one array -/

section
variable (V : (c : Dev nD) → (b : Ref sig .tc) → Buf (Elt F) ((c : Thread nD τ).loc b))

/-- The distinct buffers behind the second call's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)
          ∗ (((c : Thread nD τ).loc main_v6) ↦{fullShare} W main_v6) ∗ (((c : Thread nD τ).loc main_v7) ↦{fullShare} W main_v7)) := by
  unfold Pipeline.arrBufs
  exact bigSep_eq_bigSepL_of_eq [main_v4, main_v5, main_v6, main_v7] (by decide) (by decide) _

/-- The second call's arrays, window by window: the projected array's buffer at three shares that make the whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2) ∗ (((c : Thread nD τ).loc main_v5) ↦{fullShare} G 3)
          ∗ (((c : Thread nD τ).loc main_v6) ↦{fullShare} G 4) ∗ (((c : Thread nD τ).loc main_v7) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- A buffer held whole splits into the three shares, and they join back. -/
theorem split3 (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave Hr' := (pointsTo_share (PosShare.mem_left_op_right fullShare.right)).1 $$ Hr
  icases Hr' with ⟨Hrl, Hrr⟩
  isplitl [Hl]; · iexact Hl
  isplitl [Hrl] <;> iassumption
theorem join3 (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption
end

/-- At the second call's exit each of its arrays holds what the pipeline leaves. -/
theorem arrAt1_in (c : Dev nD) (n : Nat) :
    (dat1 (VB m) c).arrAt 0 n = VB m c main_v4 ∧ (dat1 (VB m) c).arrAt 1 n = VB m c main_v4
      ∧ (dat1 (VB m) c).arrAt 2 n = VB m c main_v4 ∧ (dat1 (VB m) c).arrAt 3 n = VB m c main_v5
      ∧ (dat1 (VB m) c).arrAt 4 n = VB m c main_v6 :=
  ⟨((dat1 (VB m) c).arrAt_in 0 rfl _).trans (A_eq1 (VB m) c 0), ((dat1 (VB m) c).arrAt_in 1 rfl _).trans (A_eq1 (VB m) c 1),
    ((dat1 (VB m) c).arrAt_in 2 rfl _).trans (A_eq1 (VB m) c 2), ((dat1 (VB m) c).arrAt_in 3 rfl _).trans (A_eq1 (VB m) c 3),
    ((dat1 (VB m) c).arrAt_in 4 rfl _).trans (A_eq1 (VB m) c 4)⟩

/-- The unscoped buffers split into the buffers behind the second call's arrays and the rest. -/
theorem held1_eq (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b : Ref sig .tc => W b)
          ∗ Pipeline.unscopedRest (Ix := Unit) (Name := ℕ) (U := UR sig nD τ) (Lvl := ℕ) spec1 c (fun b : Ref sig .tc => W b)) := by
  rw [← Pipeline.unscopedBufs_held]
  exact Pipeline.unscopedBufs_split₀ cfgs 1 winFacts₀1.arr_unscoped c _

/-- Off the result buffer the last valuation is the one the second call was entered from. -/
theorem rest1_eq (c : Dev nD) :
    (Pipeline.unscopedRest (Ix := Unit) (Name := ℕ) (U := UR sig nD τ) (Lvl := ℕ) spec1 c (fun b : Ref sig .tc => V4 m (outsF m) c b) : sProp 𝕄)
      = Pipeline.unscopedRest (Ix := Unit) (Name := ℕ) (U := UR sig nD τ) (Lvl := ℕ) spec1 c (VB m c) := by
  unfold Pipeline.unscopedRest
  refine bigSep_congr fun b hb => ?_
  have hb' : b ∉ Finset.univ.image (Pipeline.arrRef spec1) := (Finset.mem_sdiff.mp hb).2
  have hne : b ∉ ([main_v7] : List (Ref sig .tc)) := fun h => hb' (by
    rw [List.mem_singleton] at h; subst h
    exact Finset.mem_image.mpr ⟨5, Finset.mem_univ _, rfl⟩)
  dsimp only
  rw [V4_of m (outsF m) c b hne, V3_outsF]

/-- The scoped buffers the second call does not stage: the first call's staging buffers and the accumulator. -/
theorem scoped1_split (c : Dev nD) :
    (Pipeline.scopedRest (Ix := Unit) (Name := ℕ) (U := UR sig nD τ) (Lvl := ℕ) (Val := Elt F) spec1 c : sProp 𝕄)
      ⊢ iprop(stg0 (F := F) c ∗ ∃ f : Buf (Elt F) ((c : Thread nD τ).loc cc1_scratch0), ((c : Thread nD τ).loc cc1_scratch0) ↦{fullShare} f) := by
  rw [scopedRest1_eq]; unfold stg0
  iintro ⟨H0, H1, H2, H3, H4, H5, Hs⟩
  isplitl [H0 H1 H2 H3 H4 H5]
  · isplitl [H0]; · iexact H0
    isplitl [H1]; · iexact H1
    isplitl [H2]; · iexact H2
    isplitl [H3]; · iexact H3
    isplitl [H4]; · iexact H4
    iexact H5
  iexact Hs
theorem scoped1_join (c : Dev nD) :
    iprop(stg0 (F := F) c ∗ ∃ f : Buf (Elt F) ((c : Thread nD τ).loc cc1_scratch0), ((c : Thread nD τ).loc cc1_scratch0) ↦{fullShare} f)
      ⊢ (Pipeline.scopedRest (Ix := Unit) (Name := ℕ) (U := UR sig nD τ) (Lvl := ℕ) (Val := Elt F) spec1 c : sProp 𝕄) := by
  rw [scopedRest1_eq]; unfold stg0
  iintro ⟨⟨H0, H1, H2, H3, H4, H5⟩, Hs⟩
  isplitl [H0]; · iexact H0
  isplitl [H1]; · iexact H1
  isplitl [H2]; · iexact H2
  isplitl [H3]; · iexact H3
  isplitl [H4]; · iexact H4
  isplitl [H5]; · iexact H5
  iexact Hs

set_option backward.isDefEq.respectTransparency.types false in
/-- The second call over the thread state: entered from every unscoped buffer at the contents after the second host
    stretch, left with the result buffer at what the pipeline wrote back. The projected array's buffer is split three
    ways among the windows that read it and joined again at the exit; the accumulator enters the invariant at whatever it
    holds; the generator register passes through; nothing is owed. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V3 m (outsF m) c) ∗ R c)
  post c := iprop(StableHlo.held (c : Thread nD τ) (Pipeline.ucRefs τ sig) (V4 m (outsF m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V3_outsF, held1_eq, arrBufs1_eq, show pdats m 1 c = dat1 (VB m) c from rfl, arrays1_eq]
    iintro ⟨Hpre, -, -⟩
    icases Hpre with ⟨⟨⟨H4, H5, H6, H7⟩, Hrest⟩, Hp, HO⟩
    ihave H4' := (split3 _ _) $$ H4
    icases H4' with ⟨Ha, Hb, Hc⟩
    imodintro
    isplitl [Ha Hb Hc H5 H6 H7]
    · isplitl [Ha]; · iexact Ha
      isplitl [Hb]; · iexact Hb
      isplitl [Hc]; · iexact Hc
      isplitl [H5]; · iexact H5
      isplitl [H6]; · iexact H6
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (VB m) c 0 from rfl]; unfold Φ1 scrAt
    iintro ⟨Hp, -, Hr⟩
    ihave Hr' := (scoped1_split c) $$ Hr
    icases Hr' with ⟨Hstg, ⟨%f, Hs⟩⟩
    isplitl [Hstg]; · iexact Hstg
    isplitl [Hs]
    · iexists f; isplitr
      · ipureintro; intro h; exact absurd h (Nat.lt_irrefl 0)
      · rw [owns_whole]; iexact Hs
    iexact Hp
  hout c := by
    rw [Pipeline.ownSems0_none, show (pdats m 1 c).Φ (Fin.last _) = Φ1 (VB m) c (Fin.last _) from rfl]; unfold Φ1 scrAt
    iintro ⟨Hstg, ⟨%a, -, Hs⟩, Hp⟩
    isplitl [Hp]; · iexact Hp
    isplitr; · iempintro
    iapply (scoped1_join c)
    isplitl [Hstg]; · iexact Hstg
    iexists a
    iapply (Entails.of_eq (owns_whole (c : Thread nD τ) cc1_scratch0 fullShare a))
    iexact Hs
  hexit c := by
    obtain ⟨e0, e1, e2, e3, e4⟩ := arrAt1_in m c (Pipeline.pin (pcfgs (F := F)) adm 1).N
    rw [held1_eq, arrBufs1_eq, rest1_eq, show pdats m 1 c = dat1 (VB m) c from rfl, arrays1_eq, e0, e1, e2, e3, e4]
    iintro ⟨⟨Ha, Hb, Hc, H5, H6, H7⟩, HO, HY, Hrest⟩
    imodintro
    isplitl [Ha Hb Hc H5 H6 H7 Hrest]
    · isplitl [Ha Hb Hc H5 H6 H7]
      · isplitl [Ha Hb Hc]
        · rw [V4_of m (outsF m) c main_v4 (by decide), V3_outsF]
          iapply (join3 _ _); isplitl [Ha]; · iexact Ha
          isplitl [Hb] <;> iassumption
        isplitl [H5]; · rw [V4_of m (outsF m) c main_v5 (by decide), V3_outsF]; iexact H5
        isplitl [H6]; · rw [V4_of m (outsF m) c main_v6 (by decide), V3_outsF]; iexact H6
        rw [V4_main_v7, outsF_4]; iexact H7
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; every argument ends as
    launched; the result buffer ends holding what the second call's pipeline wrote back. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v7) = o4 m c) := by
  have h := run_cond m (Ix := Unit) (U := UR sig nD τ) (Lvl := ℕ) emb₁ () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)
  refine (θ_run defs _ _).mono (fun r hr c => ?_) h
  obtain ⟨h0, h1, h2, h3, h4, h7⟩ := hr c
  exact ⟨h0, h1, h2, h3, h4, h7.trans (outsF_4 m c)⟩

end Cert.KernelIdeal.Hand

end
-- ==== Proof.KI.HostVals.lean ====
import proofs.«425932_j16990890623046_3_alg».proof.Proof.KI.Run
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## Two reshapes that merge or split the leading axes, read at an index -/

/-- A `[8, 2048, n]` array flattened to `[16384, n]`: row `2048·b + t` of the result is row `t` of slab `b`. -/
theorem cast_merge_apply {α : Type} {n : ℕ} (x : (⟨3, ![8, 2048, n]⟩ : Shape).Idx → α)
    (hc : (⟨3, ![8, 2048, n]⟩ : Shape).ShapeCasts ⟨2, ![16384, n]⟩)
    (b : Fin 8) (t : Fin 2048) (d : Fin n) (rr : Fin 16384) (h : rr.val = 2048 * b.val + t.val) :
    shapeCast ⟨2, ![16384, n]⟩ x hc (ix2 rr d) = x (ix3 b t d) :=
  shapeCast_apply x hc _ _ (by
    rw [Shape.rowMajor_val_three, Shape.rowMajor_val_two]
    show (b.val * 2048 + t.val) * n + d.val = rr.val * n + d.val
    rw [h, Nat.mul_comm 2048 b.val])

/-- A `[16384, n]` array split to `[8, 2048, n]`: row `t` of slab `b` of the result is row `2048·b + t`. -/
theorem cast_split_apply {α : Type} {n : ℕ} (x : (⟨2, ![16384, n]⟩ : Shape).Idx → α)
    (hc : (⟨2, ![16384, n]⟩ : Shape).ShapeCasts ⟨3, ![8, 2048, n]⟩)
    (b : Fin 8) (t : Fin 2048) (d : Fin n) (rr : Fin 16384) (h : rr.val = 2048 * b.val + t.val) :
    shapeCast ⟨3, ![8, 2048, n]⟩ x hc (ix3 b t d) = x (ix2 rr d) :=
  shapeCast_apply x hc _ _ (by
    rw [Shape.rowMajor_val_three, Shape.rowMajor_val_two]
    show rr.val * n + d.val = (b.val * 2048 + t.val) * n + d.val
    rw [h, Nat.mul_comm 2048 b.val])

/-! ## What the first stretch of host operations leaves -/

theorem VA_v0 (c : Dev nD) :
    (VA m c main_v0 : S16384x1024.Idx → EReal)
      = shapeCast S16384x1024 (m ((c : Thread nD τ).loc main_arg0) : S8x2048x1024.Idx → EReal) shapeCasts_S8x2048x1024_S16384x1024 := by
  show StableHlo.after hostOps0 (fun b => m (c, b)) (Proc.devRef .tc main_v0) = _
  after_results
  rfl

theorem VA_v1 (c : Dev nD) :
    (VA m c main_v1 : S1x3072.Idx → EReal)
      = shapeCast S1x3072 (m ((c : Thread nD τ).loc main_arg2) : S3072.Idx → EReal) shapeCasts_S3072_S1x3072 := by
  show StableHlo.after hostOps0 (fun b => m (c, b)) (Proc.devRef .tc main_v1) = _
  after_results
  rfl

theorem VA_v2 (c : Dev nD) :
    (VA m c main_v2 : S3072x1024.Idx → EReal)
      = (truncf .bf16 (m ((c : Thread nD τ).loc main_arg1) : FVec Ideal S3072x1024 .f32) bitsLt_bf16_f32 : FVec Ideal S3072x1024 .bf16) := by
  show StableHlo.after hostOps0 (fun b => m (c, b)) (Proc.devRef .tc main_v2) = _
  after_results

theorem hv0 (c : Dev nD) (b : Fin 8) (t : Fin 2048) (d : Fin 1024) (rr : Fin 16384) (h : rr.val = 2048 * b.val + t.val) :
    VA m c main_v0 (ix2 rr d) = m ((c : Thread nD τ).loc main_arg0) (ix3 b t d) :=
  (congrFun (VA_v0 m c) (ix2 rr d)).trans
    (cast_merge_apply (m ((c : Thread nD τ).loc main_arg0) : S8x2048x1024.Idx → EReal) shapeCasts_S8x2048x1024_S16384x1024 b t d rr h)

theorem hv1 (c : Dev nD) (e : Fin 3072) :
    VA m c main_v1 (ix2 (0 : Fin 1) e) = m ((c : Thread nD τ).loc main_arg2) (ix1 e) :=
  (congrFun (VA_v1 m c) (ix2 (0 : Fin 1) e)).trans
    (shapeCast_a_1a_apply (m ((c : Thread nD τ).loc main_arg2) : S3072.Idx → EReal) shapeCasts_S3072_S1x3072 0 e)

theorem hv2 (c : Dev nD) (e : Fin 3072) (d : Fin 1024) :
    VA m c main_v2 (ix2 e d) = m ((c : Thread nD τ).loc main_arg1) (ix2 e d) :=
  (congrFun (VA_v2 m c) (ix2 e d)).trans rfl

/-! ## What the second stretch of host operations leaves -/

/-- The first call's output array, as the second stretch finds it. -/
theorem V2_v3 (c : Dev nD) : V2 m (outs2 m) c main_v3 = o2 m c := by
  show Function.update (V1 m c) (Proc.devRef .tc main_v3) (outs2 m 2 main_v3 c) (Proc.devRef .tc main_v3) = _
  rw [Function.update_self, outs2_2]

/-- An argument array the first stretch does not write is still the launch contents when the second stretch runs. -/
theorem V2_arg3 (c : Dev nD) : V2 m (outs2 m) c main_arg3 = m ((c : Thread nD τ).loc main_arg3) :=
  (V2_of m (outs2 m) c main_arg3 (by decide)).trans ((V1_of m c main_arg3 (by decide)).trans rfl)
theorem V2_arg4 (c : Dev nD) : V2 m (outs2 m) c main_arg4 = m ((c : Thread nD τ).loc main_arg4) :=
  (V2_of m (outs2 m) c main_arg4 (by decide)).trans ((V1_of m c main_arg4 (by decide)).trans rfl)

theorem VB_v4 (c : Dev nD) :
    (VB m c main_v4 : S8x2048x3072.Idx → EReal)
      = shapeCast S8x2048x3072 (o2 m c : S16384x3072.Idx → EReal) shapeCasts_S16384x3072_S8x2048x3072 := by
  show StableHlo.after hostOps1 (V2 m (outs2 m) c) (Proc.devRef .tc main_v4) = _
  after_results
  rw [V2_v3]
  rfl

theorem VB_v5 (c : Dev nD) :
    (VB m c main_v5 : S1x1024.Idx → EReal)
      = shapeCast S1x1024 (m ((c : Thread nD τ).loc main_arg3) : S1024.Idx → EReal) shapeCasts_S1024_S1x1024 := by
  show StableHlo.after hostOps1 (V2 m (outs2 m) c) (Proc.devRef .tc main_v5) = _
  after_results
  rw [V2_arg3]
  rfl

theorem VB_v6 (c : Dev nD) :
    (VB m c main_v6 : S1x1024.Idx → EReal)
      = shapeCast S1x1024 (m ((c : Thread nD τ).loc main_arg4) : S1024.Idx → EReal) shapeCasts_S1024_S1x1024 := by
  show StableHlo.after hostOps1 (V2 m (outs2 m) c) (Proc.devRef .tc main_v6) = _
  after_results
  rw [V2_arg4]
  rfl

theorem hv4 (c : Dev nD) (b : Fin 8) (t : Fin 2048) (e : Fin 3072) (rr : Fin 16384) (h : rr.val = 2048 * b.val + t.val) :
    VB m c main_v4 (ix3 b t e) = o2 m c (ix2 rr e) :=
  (congrFun (VB_v4 m c) (ix3 b t e)).trans
    (cast_split_apply (o2 m c : S16384x3072.Idx → EReal) shapeCasts_S16384x3072_S8x2048x3072 b t e rr h)

theorem hv5 (c : Dev nD) (d : Fin 1024) :
    VB m c main_v5 (ix2 (0 : Fin 1) d) = m ((c : Thread nD τ).loc main_arg3) (ix1 d) :=
  (congrFun (VB_v5 m c) (ix2 (0 : Fin 1) d)).trans
    (shapeCast_a_1a_apply (m ((c : Thread nD τ).loc main_arg3) : S1024.Idx → EReal) shapeCasts_S1024_S1x1024 0 d)

theorem hv6 (c : Dev nD) (d : Fin 1024) :
    VB m c main_v6 (ix2 (0 : Fin 1) d) = m ((c : Thread nD τ).loc main_arg4) (ix1 d) :=
  (congrFun (VB_v6 m c) (ix2 (0 : Fin 1) d)).trans
    (shapeCast_a_1a_apply (m ((c : Thread nD τ).loc main_arg4) : S1024.Idx → EReal) shapeCasts_S1024_S1x1024 0 d)

end Cert.KernelIdeal.Hand

end
-- ==== Proof.Spec.lean ====
/-
  The mathematics both programs compute, over the extended reals, as one function of the five argument arrays.

  A row of the input is projected to 3072 columns (`qkv`): the first 1024 are the query, the next 1024 the key, the last
  1024 the value. The score of rows i and j of one batch is the inner product of i's query and j's key (`score`), scaled by
  the constant `cs` = 8192/11863283 (the reciprocal of the reference's divisor 11863283/8192). Row i attends to the rows
  j ≤ i only (`att`: the scaled scores against the values, the later rows contributing zero). Each row of the result is
  then normalised over its 1024 entries (`ln`: subtract the mean, multiply by the reciprocal square root of the variance
  plus a small constant, scale and shift by the two weight vectors).
-/
import Idealize.ShloMosaic.Lib.ValueIdx
import Idealize.ShloMosaic.PureOps.Ideal

noncomputable section

open scoped BigOperators

namespace Cert.Spec

open Idealize.ShloMosaic Idealize.ShloMosaic.ValueIdx

/-- The input `x`: 8 batches of 2048 rows of 1024 entries. -/
abbrev SX : Shape := ⟨3, ![8, 2048, 1024]⟩
/-- The projection's weight: 3072 rows of 1024 entries. -/
abbrev SW : Shape := ⟨2, ![3072, 1024]⟩
/-- The projection's bias. -/
abbrev SB : Shape := ⟨1, ![3072]⟩
/-- A normalisation weight vector. -/
abbrev SL : Shape := ⟨1, ![1024]⟩

/-- Column `d` of the query third, of the key third and of the value third of a projected row. -/
def qcol (d : Fin 1024) : Fin 3072 := ⟨d.val, by omega⟩
def kcol (d : Fin 1024) : Fin 3072 := ⟨1024 + d.val, by omega⟩
def vcol (d : Fin 1024) : Fin 3072 := ⟨2048 + d.val, by omega⟩

/-- The projection: entry `e` of row `t` of batch `b` is the row against row `e` of the weight, plus the bias. -/
def qkv (x : SX.Idx → EReal) (W : SW.Idx → EReal) (bq : SB.Idx → EReal) (b : Fin 8) (t : Fin 2048) (e : Fin 3072) : EReal :=
  (∑ d : Fin 1024, x (ix3 b t d) * W (ix2 e d)) + bq (ix1 e)

/-- The unscaled score of rows `i` and `j` of batch `b`: row `i`'s query against row `j`'s key. -/
def score (Q : Fin 8 → Fin 2048 → Fin 3072 → EReal) (b : Fin 8) (i j : Fin 2048) : EReal :=
  ∑ d : Fin 1024, Q b i (qcol d) * Q b j (kcol d)

/-- The scale: 8192/11863283, the reciprocal of the divisor 11863283/8192. -/
def cs : EReal := ((8192 / 11863283 : ℝ) : EReal)

/-- Causal attention without softmax: row `i` sums, over the rows `j` not after it, the scaled score times row `j`'s
    value; a later row contributes zero. -/
def att (Q : Fin 8 → Fin 2048 → Fin 3072 → EReal) (b : Fin 8) (i : Fin 2048) (dd : Fin 1024) : EReal :=
  ∑ j : Fin 2048, (if j.val ≤ i.val then score Q b i j * cs else 0) * Q b j (vcol dd)

/-- The number of entries of a row, 1024, as the float word both programs divide by. -/
def n1024 : EReal := Ideal.ofBits .f32 0x44800000#32
/-- The small constant added to the variance, as the float word both programs carry. -/
def eps : EReal := Ideal.ofBits .f32 0x3727C5AC#32

/-- The mean of a row. -/
def mean (y : Fin 1024 → EReal) : EReal := Ideal.div (∑ d : Fin 1024, y d) n1024
/-- The variance of a row. -/
def var (y : Fin 1024 → EReal) : EReal := Ideal.div (∑ d : Fin 1024, (y d - mean y) * (y d - mean y)) n1024
/-- The normalised row, scaled by `w` and shifted by `s`. -/
def ln (y : Fin 1024 → EReal) (w s : Fin 1024 → EReal) (dd : Fin 1024) : EReal :=
  (y dd - mean y) * Ideal.rsqrt (var y + eps) * w dd + s dd

/-- The whole function: entry `dd` of row `i` of batch `b` of the result. -/
def out (x : SX.Idx → EReal) (W : SW.Idx → EReal) (bq : SB.Idx → EReal) (lw lb : SL.Idx → EReal)
    (b : Fin 8) (i : Fin 2048) (dd : Fin 1024) : EReal :=
  ln (fun d => att (qkv x W bq) b i d) (fun d => lw (ix1 d)) (fun d => lb (ix1 d)) dd

end Cert.Spec

end
-- ==== Proof.PayMatmul.lean ====
/-
  The kernel's matrix-product payloads, read at one index over the extended reals.

  Each payload is a chain of pointwise operations around one or two matrix products into a zero accumulator. A product
  into zero, read at an output index, is the sum over the contracted axis of the operands' products; a cast of a
  [1, 512, 1024] block to [512, 1024] reads the block at (0, r, d); narrowing and widening of the float format are the
  identity on the extended reals; the named scale is the rational 8192/11863283; and the mask of the diagonal block
  keeps the score of key row jj for query row r exactly when jj ≤ r.
-/
import proofs.«425932_j16990890623046_3_alg».proof.Proof.Gen.KernelIdeal.Skeleton
import proofs.«425932_j16990890623046_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.PureOps.IdealRules

set_option synthInstance.maxSize 4096

noncomputable section

open scoped BigOperators

namespace Cert.KernelIdeal.Pay

open Idealize.ShloMosaic Idealize.SL.Sem Cert.KernelIdeal Cert.KernelIdeal.Gen Idealize.ShloMosaic.ValueIdx

/-! ## The three matrix products into zero, read at an index -/

theorem lhs_proj_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_proj_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_proj_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_proj_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q
/-- Rows against rows: entry (p, c) of the product is row p of the left operand against row c of the right one. -/
theorem matmul_proj_apply (x : FVec Ideal S512x1024 .bf16) (y : FVec Ideal S3072x1024 .bf16) (p : Fin 512) (c : Fin 3072) :
    matmul dot_S512x1024_S3072x1024_S512x3072_1_1_0_0_n_n none x y (constant (F := Ideal) S512x3072 .f32 0x00000000#32) (ix2 p c)
      = ∑ k : Fin 1024, x (ix2 p k) * y (ix2 c k) := by
  simp only [matmul]
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p c) ((ValueIdx.contrEquiv1 dot_S512x1024_S3072x1024_S512x3072_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S3072x1024_S512x3072_1_1_0_0_n_n.rhsIdx (ix2 p c) ((ValueIdx.contrEquiv1 dot_S512x1024_S3072x1024_S512x3072_1_1_0_0_n_n 1024 rfl rfl).symm k) = ix2 c k := funext fun a => Fin.ext (by
    match a with
    | ⟨0, _⟩ => exact rhs_proj_0 _ _
    | ⟨1, _⟩ => exact (rhs_proj_1 _ _).trans hk)
  rw [el, er]

theorem lhs_score_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_score_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_score_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_score_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q
/-- Rows against rows: entry (p, c) of the score block is query row p against key row c. -/
theorem matmul_score_apply (x : FVec Ideal S512x1024 .bf16) (y : FVec Ideal S512x1024 .bf16) (p : Fin 512) (c : Fin 512) :
    matmul dot_S512x1024_S512x1024_S512x512_1_1_0_0_n_n none x y (constant (F := Ideal) S512x512 .f32 0x00000000#32) (ix2 p c)
      = ∑ k : Fin 1024, x (ix2 p k) * y (ix2 c k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p c) ((ValueIdx.contrEquiv1 dot_S512x1024_S512x1024_S512x512_1_1_0_0_n_n 1024 rfl rfl).symm k) = ix2 p k := funext fun a => Fin.ext (by
    match a with
    | ⟨0, _⟩ => exact lhs_score_0 _ _
    | ⟨1, _⟩ => exact (lhs_score_1 _ _).trans hk)
  have er : dot_S512x1024_S512x1024_S512x512_1_1_0_0_n_n.rhsIdx (ix2 p c) ((ValueIdx.contrEquiv1 dot_S512x1024_S512x1024_S512x512_1_1_0_0_n_n 1024 rfl rfl).symm k) = ix2 c k := funext fun a => Fin.ext (by
    match a with
    | ⟨0, _⟩ => exact rhs_score_0 _ _
    | ⟨1, _⟩ => exact (rhs_score_1 _ _).trans hk)
  rw [el, er]

theorem lhs_wv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_wv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_wv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_wv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
/-- Rows against columns: entry (p, c) of the product is row p of the weights against column c of the values. -/
theorem matmul_wv_apply (x : FVec Ideal S512x512 .bf16) (y : FVec Ideal S512x1024 .bf16) (p : Fin 512) (c : Fin 1024) :
    matmul dot_S512x512_S512x1024_S512x1024_1_0_0_1_n_n none x y (constant (F := Ideal) S512x1024 .f32 0x00000000#32) (ix2 p c)
      = ∑ k : Fin 512, x (ix2 p k) * y (ix2 k c) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p c) ((ValueIdx.contrEquiv1 dot_S512x512_S512x1024_S512x1024_1_0_0_1_n_n 512 rfl rfl).symm k) = ix2 p k := funext fun a => Fin.ext (by
    match a with
    | ⟨0, _⟩ => exact lhs_wv_0 _ _
    | ⟨1, _⟩ => exact (lhs_wv_1 _ _).trans hk)
  have er : dot_S512x512_S512x1024_S512x1024_1_0_0_1_n_n.rhsIdx (ix2 p c) ((ValueIdx.contrEquiv1 dot_S512x512_S512x1024_S512x1024_1_0_0_1_n_n 512 rfl rfl).symm k) = ix2 k c := funext fun a => Fin.ext (by
    match a with
    | ⟨0, _⟩ => exact (rhs_wv_0 _ _).trans hk
    | ⟨1, _⟩ => exact rhs_wv_1 _ _)
  rw [el, er]

/-! ## The pieces that are not pointwise, each over variables -/

/-- The named scale is the rational 8192/11863283 of the specification. -/
theorem scale_named : Named.named (F := Ideal) Cert.KernelIdeal.κ "fold_c_8192_11863283" (φ := .f32) 0x3A3504F3#32 = Cert.Spec.cs :=
  IdealRules.named_const.ideal_named_scalar _ _ _ _ rfl

/-- The scalar zero word is the extended real zero. -/
theorem zero_word : (Scalar.ofBits .f32 0x00000000#32 : Ideal .f32) = 0 := Ideal.ofBits_zero_f32

/-- A [1, 512, 1024] block cast to [512, 1024] reads, at (p, d), the block at (0, p, d). -/
theorem cast_block_apply (x : Vec Ideal S1x512x1024 .bf16) (h : S1x512x1024.ShapeCasts S512x1024) (p : Fin 512) (d : Fin 1024) :
    shapeCast S512x1024 x h (ix2 p d) = x (ix3 (0 : Fin 1) p d) :=
  shapeCast_1ab_ab_apply x h p d

/-- The bias row broadcast over the 512 rows reads, at (p, e), the row at e. -/
theorem bias_row_apply (x : FVec Ideal S1x3072 .f32) (h : S1x3072.Broadcasts S512x3072) (p : Fin 512) (e : Fin 3072) :
    broadcastTo S512x3072 x h (ix2 p e) = x (ix2 (0 : Fin 1) e) :=
  broadcastTo_1b_ab_apply x h p e

/-- The row number of an entry of the 512 × 512 score block, as a word. -/
theorem row_word_apply (h : S512x512.Iotas .tc 32 [0]) (p c : Fin 512) :
    iota .tc S512x512 32 [0] h (ix2 p c) = BitVec.ofNat 32 p.val :=
  iota_single_apply .tc S512x512 32 0 h (ix2 p c)

/-- The column number of an entry of the 512 × 512 score block, as a word. -/
theorem col_word_apply (h : S512x512.Iotas .tc 32 [1]) (p c : Fin 512) :
    iota .tc S512x512 32 [1] h (ix2 p c) = BitVec.ofNat 32 c.val :=
  iota_single_apply .tc S512x512 32 1 h (ix2 p c)

/-- A number below 512 is its own 32-bit word. -/
theorem word_toNat (p : Fin 512) : (BitVec.ofNat 32 p.val).toNat = p.val := by
  rw [BitVec.toNat_ofNat]; exact Nat.mod_eq_of_lt (by have := p.isLt; omega)

/-- The signed comparison "row ≥ column" of two such words holds exactly when the column is not after the row. -/
theorem mask_bit (p c : Fin 512) :
    IntOp.cmpi .sge (BitVec.ofNat 32 p.val) (BitVec.ofNat 32 c.val) = if c.val ≤ p.val then 1#1 else 0#1 := by
  have hp := word_toNat p
  have hc := word_toNat c
  have key := StableHlo.Predicate.sge_iff_toNat (a := BitVec.ofNat 32 p.val) (b := BitVec.ofNat 32 c.val)
    (by rw [hp]; have := p.isLt; omega) (by rw [hc]; have := c.isLt; omega)
  rw [hp, hc] at key
  by_cases h : c.val ≤ p.val
  · rw [if_pos h]; exact key.mpr h
  · rw [if_neg h]; exact eq_zero_of_ne_one (fun h1 => h (key.mp h1))

/-- So the select on that comparison keeps its first operand on and below the diagonal and its second above it. -/
theorem mask_select (A B : EReal) (p c : Fin 512) :
    Scalar.select (IntOp.cmpi .sge (BitVec.ofNat 32 p.val) (BitVec.ofNat 32 c.val)) A B = if c.val ≤ p.val then A else B := by
  rw [mask_bit]
  by_cases h : c.val ≤ p.val
  · rw [if_pos h, if_pos h]; exact select_one A B
  · rw [if_neg h, if_neg h]; exact select_zero A B

/-! ## The four payloads -/

/-- the reset payload is zero -/
theorem pay1_apply (r : Fin 512) (dd : Fin 1024) : k1_pay1 (F := Ideal) (ValueIdx.ix2 r dd) = 0 := by
  unfold k1_pay1
  simp only [shapeCast_self, broadcast_apply]
  exact zero_word

/-- projection block: 512 rows of x against all 3072 rows of W, plus the bias row -/
theorem pay0_apply (v0 : Vec Ideal S512x1024 .f32) (v3 : Vec Ideal S3072x1024 .bf16) (v6 : Vec Ideal S1x3072 .f32) (r : Fin 512) (e : Fin 3072) :
    k0_pay1 (F := Ideal) v0 v3 v6 (ValueIdx.ix2 r e)
      = (∑ d : Fin 1024, v0 (ValueIdx.ix2 r d) * v3 (ValueIdx.ix2 e d)) + v6 (ValueIdx.ix2 (0 : Fin 1) e) := by
  unfold k0_pay1
  simp only [shapeCast_self, truncf_apply, addf_apply, matmul_proj_apply, bias_row_apply]

/-- off-diagonal block: add to the accumulator the scaled scores of the block's 512 query rows against its 512 key rows, times the value rows -/
theorem pay2_apply (q k v : Vec Ideal S1x512x1024 .bf16) (a : Vec Ideal S512x1024 .f32) (r : Fin 512) (dd : Fin 1024) :
    k1_pay2 (F := Ideal) q k v a (ValueIdx.ix2 r dd)
      = a (ValueIdx.ix2 r dd) + ∑ jj : Fin 512, ((∑ d : Fin 1024, q (ValueIdx.ix3 (0 : Fin 1) r d) * k (ValueIdx.ix3 (0 : Fin 1) jj d)) * Cert.Spec.cs) * v (ValueIdx.ix3 (0 : Fin 1) jj dd) := by
  unfold k1_pay2
  simp only [shapeCast_self, addf_apply, matmul_wv_apply, truncf_apply, mulf_apply, matmul_score_apply, broadcast_apply,
    scale_named]
  refine congrArg (a (ix2 r dd) + ·) (Finset.sum_congr rfl fun jj _ => ?_)
  rw [cast_block_apply v]
  refine congrArg (· * v (ix3 (0 : Fin 1) jj dd)) ?_
  refine congrArg (· * Cert.Spec.cs) (Finset.sum_congr rfl fun d _ => ?_)
  rw [cast_block_apply q, cast_block_apply k]

/-- diagonal block: the same with the scores of key rows after the query row replaced by zero -/
theorem pay4_apply (q k v : Vec Ideal S1x512x1024 .bf16) (a : Vec Ideal S512x1024 .f32) (r : Fin 512) (dd : Fin 1024) :
    k1_pay4 (F := Ideal) q k v a (ValueIdx.ix2 r dd)
      = a (ValueIdx.ix2 r dd) + ∑ jj : Fin 512, (if jj.val ≤ r.val then (∑ d : Fin 1024, q (ValueIdx.ix3 (0 : Fin 1) r d) * k (ValueIdx.ix3 (0 : Fin 1) jj d)) * Cert.Spec.cs else 0) * v (ValueIdx.ix3 (0 : Fin 1) jj dd) := by
  unfold k1_pay4
  simp only [shapeCast_self, addf_apply, matmul_wv_apply, truncf_apply, select_apply, cmpi, mulf_apply, matmul_score_apply,
    broadcast_apply, scale_named, zero_word]
  refine congrArg (a (ix2 r dd) + ·) (Finset.sum_congr rfl fun jj _ => ?_)
  rw [cast_block_apply v, row_word_apply, col_word_apply, mask_select]
  refine congrArg (· * v (ix3 (0 : Fin 1) jj dd)) ?_
  refine congrArg (fun t => if jj.val ≤ r.val then t * Cert.Spec.cs else 0) (Finset.sum_congr rfl fun d _ => ?_)
  rw [cast_block_apply q, cast_block_apply k]

end Cert.KernelIdeal.Pay

end
-- ==== Proof.KI.Value0.lean ====
import proofs.«425932_j16990890623046_3_alg».proof.Proof.Spec
import proofs.«425932_j16990890623046_3_alg».proof.Proof.KI.R0
import proofs.«425932_j16990890623046_3_alg».proof.Proof.PayMatmul
import Idealize.ShloMosaic.Lib.Pipeline.FrameBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The block index of each of the four windows at every point of the grid: the rows' and the result's windows move
    with the point along the rows and stand still along the columns; the weight's and the bias's never move. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The first call's three input arrays as the region finds them, at their literal types. -/
abbrev xflat (c : Dev nD) : Vec Ideal S16384x1024 .f32 := V c main_v0
abbrev wrows (c : Dev nD) : Vec Ideal S3072x1024 .bf16 := V c main_v2
abbrev brow (c : Dev nD) : Vec Ideal S1x3072 .f32 := V c main_v1

/-- Row `r` of the rows' block at point `t` is row `512 t + r` of the array. -/
theorem iblk0_0_apply (c : Dev nD) (t : Fin cfg0.N) (r : Fin 512) (d : Fin 1024) (k : Fin 16384)
    (hk : k.val = 512 * t.val + r.val) :
    (iblk0 V c 0 t : Vec Ideal S512x1024 .f32) (ix2 r d) = xflat V c (ix2 k d) := by
  obtain ⟨h0, h1, -⟩ := idx0 t
  unfold iblk0
  rw [View.read_apply]
  show V c main_v0 _ = V c main_v0 _
  congr 1
  funext a; apply Fin.ext
  match a with
  | ⟨0, _⟩ => show win0_0.index t 0 * 512 + 1 * r.val = k.val; omega
  | ⟨1, _⟩ => show win0_0.index t 1 * 1024 + 1 * d.val = d.val; omega

/-- The weight's block is the whole weight at every point. -/
theorem iblk0_1_apply (c : Dev nD) (t : Fin cfg0.N) (e : Fin 3072) (d : Fin 1024) :
    (iblk0 V c 1 t : Vec Ideal S3072x1024 .bf16) (ix2 e d) = wrows V c (ix2 e d) := by
  obtain ⟨-, -, h0, h1, -⟩ := idx0 t
  unfold iblk0
  rw [View.read_apply]
  show V c main_v2 _ = V c main_v2 _
  congr 1
  funext a; apply Fin.ext
  match a with
  | ⟨0, _⟩ => show win0_1.index t 0 * 3072 + 1 * e.val = e.val; omega
  | ⟨1, _⟩ => show win0_1.index t 1 * 1024 + 1 * d.val = d.val; omega

/-- The bias's block is the whole bias row at every point. -/
theorem iblk0_2_apply (c : Dev nD) (t : Fin cfg0.N) (z : Fin 1) (e : Fin 3072) :
    (iblk0 V c 2 t : Vec Ideal S1x3072 .f32) (ix2 z e) = brow V c (ix2 z e) := by
  obtain ⟨-, -, -, -, h0, h1, -⟩ := idx0 t
  unfold iblk0
  rw [View.read_apply]
  show V c main_v1 _ = V c main_v1 _
  congr 1
  funext a; apply Fin.ext
  match a with
  | ⟨0, _⟩ => show win0_2.index t 0 * 1 + 1 * z.val = z.val; omega
  | ⟨1, _⟩ => show win0_2.index t 1 * 3072 + 1 * e.val = e.val; omega

/-- Entry `(rr, e)` of the result: row `rr` of the flattened input against row `e` of the weight, plus the bias. -/
def proj0 (c : Dev nD) (rr : Fin 16384) (e : Fin 3072) : EReal :=
  (∑ d : Fin 1024, xflat V c (ix2 rr d) * wrows V c (ix2 e d)) + brow V c (ix2 (0 : Fin 1) e)

/-- The same as one function of the result array's index. -/
def G0 (c : Dev nD) : Vec Ideal S16384x3072 .bf16 :=
  fun i => proj0 V c ⟨(i 0).val, (i 0).isLt⟩ ⟨(i 1).val, (i 1).isLt⟩

/-- What point `t` writes back is block `t` of `G0`: the payload's entry `(r, e)` is row `r` of the rows' block
    against row `e` of the weight plus the bias, the rows' block's row `r` is the array's row `512 t + r`, and the
    result's block sits at the same rows. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  obtain ⟨-, -, -, -, -, -, h0, h1⟩ := idx0 t
  funext j
  obtain ⟨r, e, rfl⟩ : ∃ (r : Fin 512) (e : Fin 3072), j = ix2 r e := ⟨j 0, j 1, eq_ix2 (n0 := 512) (n1 := 3072) j⟩
  rw [View.read_apply]
  have ht : t.val < 32 := t.isLt
  have hG : G0 V c (((cfg0.win 3).blk t).view.emb (ix2 r e)) = proj0 V c ⟨512 * t.val + r.val, by omega⟩ e := by
    show proj0 V c _ _ = proj0 V c _ _
    refine congrArg₂ (proj0 V c) (Fin.ext ?_) (Fin.ext ?_)
    · show win0_3.index t 0 * 512 + 1 * r.val = 512 * t.val + r.val; omega
    · show win0_3.index t 1 * 3072 + 1 * e.val = e.val; omega
  show k0_pay1 (F := Ideal) (iblk0 V c 0 t) (iblk0 V c 1 t) (iblk0 V c 2 t) (ix2 r e)
    = G0 V c (((cfg0.win 3).blk t).view.emb (ix2 r e))
  rw [hG, Pay.pay0_apply]
  unfold proj0
  exact congrArg₂ (· + ·)
    (Finset.sum_congr rfl fun d _ => congrArg₂ (· * ·) (iblk0_0_apply V c t r d _ rfl) (iblk0_1_apply V c t e d))
    (iblk0_2_apply V c t 0 e)

/-- An index of the result array is in point `t`'s block iff each coordinate is in the block's range on its axis. -/
theorem mem_blk0_3 (t : Fin cfg0.N) (i : S16384x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- The 32 blocks of 512 rows tile the 16384 rows: row `rr` lies in the block of point `rr / 512`. -/
theorem cover0_3_arr (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : (i 0).val / 512 < cfg0.N := by show (i 0).val / 512 < 32; omega
  refine ⟨⟨(i 0).val / 512, hN⟩, flush0_3 _, ?_⟩
  rw [mem_blk0_3]
  obtain ⟨-, -, -, -, -, -, h0, h1⟩ := idx0 ⟨(i 0).val / 512, hN⟩
  intro a
  match a with
  | ⟨0, _⟩ =>
    show win0_3.index ⟨(i 0).val / 512, hN⟩ 0 * 512 ≤ (i 0).val ∧ (i 0).val < win0_3.index ⟨(i 0).val / 512, hN⟩ 0 * 512 + 512
    rw [h0]; show (i 0).val / 512 * 512 ≤ (i 0).val ∧ (i 0).val < (i 0).val / 512 * 512 + 512; omega
  | ⟨1, _⟩ =>
    show win0_3.index ⟨(i 0).val / 512, hN⟩ 1 * 3072 ≤ (i 1).val ∧ (i 1).val < win0_3.index ⟨(i 0).val / 512, hN⟩ 1 * 3072 + 3072
    rw [h1]; omega

/-- The result array after the run is `G0`. -/
theorem arrAt0_3_eq (c : Dev nD) : (dat0 V c).arrAt 3 cfg0.N = G0 V c :=
  (dat0 V c).arrAt_eq_of_cover 3 (G0 V c) (fun t _ => flushed0_3_eq V c t) cover0_3_arr

/-- What the first call leaves in its output array: every row of the flattened input against every row of the weight,
    plus the bias. -/
theorem arrAt0_3 (c : Dev nD) (rr : Fin 16384) (e : Fin 3072) :
    (dat0 V c).arrAt 3 cfg0.N (ix2 rr e)
      = (∑ d : Fin 1024, xflat V c (ix2 rr d) * wrows V c (ix2 e d)) + brow V c (ix2 (0 : Fin 1) e) := by
  rw [arrAt0_3_eq]
  rfl

end
end Cert.KernelIdeal.Hand
end
-- ==== Proof.KI.ValueDefs.lean ====
import proofs.«425932_j16990890623046_3_alg».proof.Proof.Spec
import proofs.«425932_j16990890623046_3_alg».proof.Proof.KI.R1
import Idealize.ShloMosaic.Lib.Pipeline.FrameBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The summand of row `i`'s attention sum at row `j`: the scaled score if `j` is not after `i`, else zero, times row
    `j`'s value entry. -/
def term (Q : Fin 8 → Fin 2048 → Fin 3072 → EReal) (b : Fin 8) (i : Fin 2048) (dd : Fin 1024) (j : Fin 2048) : EReal :=
  (if j.val ≤ i.val then Cert.Spec.score Q b i j * Cert.Spec.cs else 0) * Q b j (Cert.Spec.vcol dd)

/-- Row `jj` of k-block `kb`. -/
def rowOf (kb : Fin 4) (jj : Fin 512) : Fin 2048 := ⟨512 * kb.val + jj.val, by omega⟩

/-- The attention sum over the first `n` k-blocks of 512 rows. -/
def partAtt (Q : Fin 8 → Fin 2048 → Fin 3072 → EReal) (b : Fin 8) (i : Fin 2048) (dd : Fin 1024) (n : Nat) : EReal :=
  ∑ kb : Fin 4, if kb.val < n then ∑ jj : Fin 512, term Q b i dd (rowOf kb jj) else 0

/-- The projected array as a function of batch, row and column. -/
abbrev Qof (V : (c : Dev nD) → (b : Ref sig .tc) → Buf (Elt Ideal) ((c : Thread nD τ).loc b)) (c : Dev nD) :
    Fin 8 → Fin 2048 → Fin 3072 → EReal := fun b t e => V c main_v4 (ix3 b t e)

end Cert.KernelIdeal.Hand

end
-- ==== Proof.KI.Blocks1.lean ====
import proofs.«425932_j16990890623046_3_alg».proof.Proof.KI.R1
import Idealize.ShloMosaic.Lib.Pipeline.FrameBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

section
variable (V : (c : Dev nD) → (b : Ref sig .tc) → Buf (Elt F) ((c : Thread nD τ).loc b))

/-- The printed index maps of the five input windows, decided once over the grid of 128 points: per axis, the block
    index of point `t`'s block in its array. -/
theorem idx1_0 : ∀ t : Fin cfg1.N, win1_0.index t (0 : Fin 3) = t.val / 16
    ∧ win1_0.index t (1 : Fin 3) = (t.val / 4) % 4 ∧ win1_0.index t (2 : Fin 3) = 0 :=
  (by decide +kernel : ∀ t : Fin grid1.N, _)
theorem idx1_1 : ∀ t : Fin cfg1.N, win1_1.index t (0 : Fin 3) = t.val / 16
    ∧ win1_1.index t (1 : Fin 3) = min (t.val % 4) ((t.val / 4) % 4) ∧ win1_1.index t (2 : Fin 3) = 1 :=
  (by decide +kernel : ∀ t : Fin grid1.N, _)
theorem idx1_2 : ∀ t : Fin cfg1.N, win1_2.index t (0 : Fin 3) = t.val / 16
    ∧ win1_2.index t (1 : Fin 3) = min (t.val % 4) ((t.val / 4) % 4) ∧ win1_2.index t (2 : Fin 3) = 2 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-- The query block of point `t`: rows `512·qi …` of batch `t / 16`, the first 1024 columns of the projected array. -/
theorem blk1_0 (c : Dev nD) (t : Fin cfg1.N) (r : Fin 512) (d : Fin 1024) (b : Fin 8) (i : Fin 2048) (e : Fin 3072)
    (hb : b.val = t.val / 16) (hi : i.val = 512 * ((t.val / 4) % 4) + r.val) (he : e.val = d.val) :
    iblk1 V c 0 t (ix3 (0 : Fin 1) r d) = V c main_v4 (ix3 b i e) := by
  obtain ⟨e0, e1, e2⟩ := idx1_0 t
  show V c main_v4 (((cfg1.win 0).blk t).view.emb (ix3 (0 : Fin 1) r d)) = V c main_v4 (ix3 b i e)
  refine congrArg _ ?_
  funext a; apply Fin.ext
  match a with
  | ⟨0, _⟩ => show win1_0.index t (0 : Fin 3) * 1 + 1 * (0 : Fin 1).val = b.val; rw [e0, hb]; simp
  | ⟨1, _⟩ => show win1_0.index t (1 : Fin 3) * 512 + 1 * r.val = i.val; rw [e1, hi]; omega
  | ⟨2, _⟩ => show win1_0.index t (2 : Fin 3) * 1024 + 1 * d.val = e.val; rw [e2, he]; omega

/-- The key block: rows of k-block `min ki qi`, columns 1024 … 2047. -/
theorem blk1_1 (c : Dev nD) (t : Fin cfg1.N) (r : Fin 512) (d : Fin 1024) (b : Fin 8) (j : Fin 2048) (e : Fin 3072)
    (hb : b.val = t.val / 16) (hj : j.val = 512 * (min (t.val % 4) ((t.val / 4) % 4)) + r.val) (he : e.val = 1024 + d.val) :
    iblk1 V c 1 t (ix3 (0 : Fin 1) r d) = V c main_v4 (ix3 b j e) := by
  obtain ⟨e0, e1, e2⟩ := idx1_1 t
  show V c main_v4 (((cfg1.win 1).blk t).view.emb (ix3 (0 : Fin 1) r d)) = V c main_v4 (ix3 b j e)
  refine congrArg _ ?_
  funext a; apply Fin.ext
  match a with
  | ⟨0, _⟩ => show win1_1.index t (0 : Fin 3) * 1 + 1 * (0 : Fin 1).val = b.val; rw [e0, hb]; simp
  | ⟨1, _⟩ => show win1_1.index t (1 : Fin 3) * 512 + 1 * r.val = j.val; rw [e1, hj]; omega
  | ⟨2, _⟩ => show win1_1.index t (2 : Fin 3) * 1024 + 1 * d.val = e.val; rw [e2, he]; omega

/-- The value block: the same rows, columns 2048 … 3071. -/
theorem blk1_2 (c : Dev nD) (t : Fin cfg1.N) (r : Fin 512) (d : Fin 1024) (b : Fin 8) (j : Fin 2048) (e : Fin 3072)
    (hb : b.val = t.val / 16) (hj : j.val = 512 * (min (t.val % 4) ((t.val / 4) % 4)) + r.val) (he : e.val = 2048 + d.val) :
    iblk1 V c 2 t (ix3 (0 : Fin 1) r d) = V c main_v4 (ix3 b j e) := by
  obtain ⟨e0, e1, e2⟩ := idx1_2 t
  show V c main_v4 (((cfg1.win 2).blk t).view.emb (ix3 (0 : Fin 1) r d)) = V c main_v4 (ix3 b j e)
  refine congrArg _ ?_
  funext a; apply Fin.ext
  match a with
  | ⟨0, _⟩ => show win1_2.index t (0 : Fin 3) * 1 + 1 * (0 : Fin 1).val = b.val; rw [e0, hb]; simp
  | ⟨1, _⟩ => show win1_2.index t (1 : Fin 3) * 512 + 1 * r.val = j.val; rw [e1, hj]; omega
  | ⟨2, _⟩ => show win1_2.index t (2 : Fin 3) * 1024 + 1 * d.val = e.val; rw [e2, he]; omega

/-- The two weight rows are their whole arrays at every point. -/
theorem blk1_3 (c : Dev nD) (t : Fin cfg1.N) (d : Fin 1024) : iblk1 V c 3 t (ix2 (0 : Fin 1) d) = V c main_v5 (ix2 (0 : Fin 1) d) := by
  obtain ⟨e0, e1⟩ := idx1_3 t
  show V c main_v5 (((cfg1.win 3).blk t).view.emb (ix2 (0 : Fin 1) d)) = V c main_v5 (ix2 (0 : Fin 1) d)
  refine congrArg _ ?_
  funext a; apply Fin.ext
  match a with
  | ⟨0, _⟩ => show win1_3.index t (0 : Fin 2) * 1 + 1 * (0 : Fin 1).val = (0 : Fin 1).val; rw [e0]; simp
  | ⟨1, _⟩ => show win1_3.index t (1 : Fin 2) * 1024 + 1 * d.val = d.val; rw [e1]; omega
theorem blk1_4 (c : Dev nD) (t : Fin cfg1.N) (d : Fin 1024) : iblk1 V c 4 t (ix2 (0 : Fin 1) d) = V c main_v6 (ix2 (0 : Fin 1) d) := by
  obtain ⟨e0, e1⟩ := idx1_4 t
  show V c main_v6 (((cfg1.win 4).blk t).view.emb (ix2 (0 : Fin 1) d)) = V c main_v6 (ix2 (0 : Fin 1) d)
  refine congrArg _ ?_
  funext a; apply Fin.ext
  match a with
  | ⟨0, _⟩ => show win1_4.index t (0 : Fin 2) * 1 + 1 * (0 : Fin 1).val = (0 : Fin 1).val; rw [e0]; simp
  | ⟨1, _⟩ => show win1_4.index t (1 : Fin 2) * 1024 + 1 * d.val = d.val; rw [e1]; omega

end

end Cert.KernelIdeal.Hand

end
-- ==== Proof.KI.Acc1.lean ====
import proofs.«425932_j16990890623046_3_alg».proof.Proof.KI.ValueDefs
import proofs.«425932_j16990890623046_3_alg».proof.Proof.KI.Blocks1
import proofs.«425932_j16990890623046_3_alg».proof.Proof.PayMatmul
import Idealize.ShloMosaic.Lib.Pipeline.FrameBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The partial attention sum, block by block -/

/-- Over no k-block the partial sum is zero. -/
theorem partAtt_zero (Q : Fin 8 → Fin 2048 → Fin 3072 → EReal) (b : Fin 8) (i : Fin 2048) (dd : Fin 1024) :
    partAtt Q b i dd 0 = 0 := by
  unfold partAtt
  exact Finset.sum_eq_zero fun kb _ => if_neg (Nat.not_lt_zero _)

/-- One more k-block adds that block's sum. -/
theorem partAtt_succ (Q : Fin 8 → Fin 2048 → Fin 3072 → EReal) (b : Fin 8) (i : Fin 2048) (dd : Fin 1024) (kb : Fin 4) :
    partAtt Q b i dd (kb.val + 1) = partAtt Q b i dd kb.val + ∑ jj : Fin 512, term Q b i dd (rowOf kb jj) := by
  unfold partAtt
  rw [Fin.sum_univ_four, Fin.sum_univ_four]
  fin_cases kb <;> simp [add_assoc]

/-- The first k-block alone. -/
theorem partAtt_one (Q : Fin 8 → Fin 2048 → Fin 3072 → EReal) (b : Fin 8) (i : Fin 2048) (dd : Fin 1024) :
    partAtt Q b i dd 1 = ∑ jj : Fin 512, term Q b i dd (rowOf 0 jj) := by
  have h := partAtt_succ Q b i dd 0
  rw [show ((0 : Fin 4).val + 1) = 1 from rfl, show (0 : Fin 4).val = 0 from rfl, partAtt_zero, zero_add] at h
  exact h

/-! ## A block's sum as the specification's summands -/

/-- A k-block wholly before the query row: every one of its rows contributes its scaled score. -/
theorem offSum (Q : Fin 8 → Fin 2048 → Fin 3072 → EReal) (b : Fin 8) (i : Fin 2048) (dd : Fin 1024) (kb : Fin 4) (r : Fin 512)
    (q k v : Vec Ideal S1x512x1024 .bf16)
    (hq : ∀ d : Fin 1024, q (ix3 (0 : Fin 1) r d) = Q b i (Cert.Spec.qcol d))
    (hk : ∀ (jj : Fin 512) (d : Fin 1024), k (ix3 (0 : Fin 1) jj d) = Q b (rowOf kb jj) (Cert.Spec.kcol d))
    (hv : ∀ jj : Fin 512, v (ix3 (0 : Fin 1) jj dd) = Q b (rowOf kb jj) (Cert.Spec.vcol dd))
    (hlt : 512 * kb.val + 511 ≤ i.val) :
    (∑ jj : Fin 512, ((∑ d : Fin 1024, q (ix3 (0 : Fin 1) r d) * k (ix3 (0 : Fin 1) jj d)) * Cert.Spec.cs) * v (ix3 (0 : Fin 1) jj dd))
      = ∑ jj : Fin 512, term Q b i dd (rowOf kb jj) := by
  refine Finset.sum_congr rfl fun jj _ => ?_
  unfold term Cert.Spec.score
  have hle : (rowOf kb jj).val ≤ i.val := by
    show 512 * kb.val + jj.val ≤ i.val
    have := jj.isLt; omega
  rw [if_pos hle, hv jj]
  refine congrArg (fun s => s * Cert.Spec.cs * Q b (rowOf kb jj) (Cert.Spec.vcol dd)) (Finset.sum_congr rfl fun d _ => ?_)
  rw [hq d, hk jj d]

/-- The k-block of the query row itself: its rows up to the query row contribute, the later ones zero. -/
theorem diagSum (Q : Fin 8 → Fin 2048 → Fin 3072 → EReal) (b : Fin 8) (i : Fin 2048) (dd : Fin 1024) (kb : Fin 4) (r : Fin 512)
    (q k v : Vec Ideal S1x512x1024 .bf16)
    (hq : ∀ d : Fin 1024, q (ix3 (0 : Fin 1) r d) = Q b i (Cert.Spec.qcol d))
    (hk : ∀ (jj : Fin 512) (d : Fin 1024), k (ix3 (0 : Fin 1) jj d) = Q b (rowOf kb jj) (Cert.Spec.kcol d))
    (hv : ∀ jj : Fin 512, v (ix3 (0 : Fin 1) jj dd) = Q b (rowOf kb jj) (Cert.Spec.vcol dd))
    (hi : i.val = 512 * kb.val + r.val) :
    (∑ jj : Fin 512, (if jj.val ≤ r.val then (∑ d : Fin 1024, q (ix3 (0 : Fin 1) r d) * k (ix3 (0 : Fin 1) jj d)) * Cert.Spec.cs else 0)
        * v (ix3 (0 : Fin 1) jj dd))
      = ∑ jj : Fin 512, term Q b i dd (rowOf kb jj) := by
  refine Finset.sum_congr rfl fun jj _ => ?_
  unfold term Cert.Spec.score
  rw [hv jj]
  have hiff : (rowOf kb jj).val ≤ i.val ↔ jj.val ≤ r.val := by
    show 512 * kb.val + jj.val ≤ i.val ↔ _
    omega
  refine congrArg (fun s => s * Q b (rowOf kb jj) (Cert.Spec.vcol dd)) ?_
  by_cases h : jj.val ≤ r.val
  · rw [if_pos h, if_pos (hiff.mpr h)]
    refine congrArg (fun s => s * Cert.Spec.cs) (Finset.sum_congr rfl fun d _ => ?_)
    rw [hq d, hk jj d]
  · rw [if_neg h, if_neg (fun h' => h (hiff.mp h'))]

section
variable (V : (c : Dev nD) → (b : Ref sig .tc) → Buf (Elt Ideal) ((c : Thread nD τ).loc b))

/-- One step of the accumulator at point `t`, read at row `r` and column `dd`: if what the point before left is the
    partial sum over the k-blocks before this point's (nothing being asked of it at the first k-block, where the step
    starts from zero), the step leaves the partial sum through this point's k-block, or through the diagonal block once
    the point is past it. -/
theorem accStep_apply (c : Dev nD) (t : Fin cfg1.N) (r : Fin 512) (dd : Fin 1024) (b : Fin 8) (i : Fin 2048)
    (hb : b.val = t.val / 16) (hi : i.val = 512 * ((t.val / 4) % 4) + r.val) (a : Vec Ideal S512x1024 .f32)
    (ha : t.val % 4 ≠ 0 → a (ix2 r dd) = partAtt (Qof V c) b i dd (min (t.val % 4 - 1) ((t.val / 4) % 4) + 1)) :
    accStep ((t.val / 4) % 4) (t.val % 4) (iblk1 V c 0 t) (iblk1 V c 1 t) (iblk1 V c 2 t) a (ix2 r dd)
      = partAtt (Qof V c) b i dd (min (t.val % 4) ((t.val / 4) % 4) + 1) := by
  have hN : cfg1.N = 128 := N_1
  have htl := t.isLt
  have hr := r.isLt
  obtain ⟨kb, hkb⟩ : ∃ kb : Fin 4, kb.val = min (t.val % 4) ((t.val / 4) % 4) :=
    ⟨⟨min (t.val % 4) ((t.val / 4) % 4), by omega⟩, rfl⟩
  have hq : ∀ d : Fin 1024, iblk1 V c 0 t (ix3 (0 : Fin 1) r d) = Qof V c b i (Cert.Spec.qcol d) :=
    fun d => blk1_0 V c t r d b i (Cert.Spec.qcol d) hb hi rfl
  have hk : ∀ (jj : Fin 512) (d : Fin 1024), iblk1 V c 1 t (ix3 (0 : Fin 1) jj d) = Qof V c b (rowOf kb jj) (Cert.Spec.kcol d) :=
    fun jj d => blk1_1 V c t jj d b (rowOf kb jj) (Cert.Spec.kcol d) hb (by show 512 * kb.val + jj.val = _; rw [hkb]) rfl
  have hv : ∀ jj : Fin 512, iblk1 V c 2 t (ix3 (0 : Fin 1) jj dd) = Qof V c b (rowOf kb jj) (Cert.Spec.vcol dd) :=
    fun jj => blk1_2 V c t jj dd b (rowOf kb jj) (Cert.Spec.vcol dd) hb (by show 512 * kb.val + jj.val = _; rw [hkb]) rfl
  -- what the step starts from, when the point's k-block is not past the diagonal: the partial sum before that block
  have hbase : t.val % 4 ≤ (t.val / 4) % 4 →
      (if t.val % 4 = 0 then (k1_pay1 (F := Ideal) : Vec Ideal S512x1024 .f32) else a) (ix2 r dd) = partAtt (Qof V c) b i dd kb.val := by
    intro hle
    by_cases h0 : t.val % 4 = 0
    · rw [if_pos h0, Pay.pay1_apply, show kb.val = 0 by omega, partAtt_zero]
    · rw [if_neg h0, ha h0]
      exact congrArg (partAtt (Qof V c) b i dd) (by omega)
  unfold accStep
  by_cases hlt : t.val % 4 < (t.val / 4) % 4
  · rw [if_pos hlt, Pay.pay2_apply,
      offSum (Qof V c) b i dd kb r (iblk1 V c 0 t) (iblk1 V c 1 t) (iblk1 V c 2 t) hq hk hv (by omega),
      hbase (by omega), ← partAtt_succ]
    exact congrArg (partAtt (Qof V c) b i dd) (by omega)
  · rw [if_neg hlt]
    by_cases heq : t.val % 4 = (t.val / 4) % 4
    · rw [if_pos heq, Pay.pay4_apply,
        diagSum (Qof V c) b i dd kb r (iblk1 V c 0 t) (iblk1 V c 1 t) (iblk1 V c 2 t) hq hk hv (by omega),
        hbase (by omega), ← partAtt_succ]
      exact congrArg (partAtt (Qof V c) b i dd) (by omega)
    · rw [if_neg heq]
      have h0 : t.val % 4 ≠ 0 := by omega
      rw [if_neg h0, ha h0]
      exact congrArg (partAtt (Qof V c) b i dd) (by omega)

/-- The invariant over the bare point number, by induction on it. -/
theorem accAfter_apply_nat (c : Dev nD) : ∀ (n : Nat) (h : n < cfg1.N) (r : Fin 512) (dd : Fin 1024) (b : Fin 8) (i : Fin 2048),
    b.val = n / 16 → i.val = 512 * ((n / 4) % 4) + r.val →
    accAfter V c n h (ix2 r dd) = partAtt (Qof V c) b i dd (min (n % 4) ((n / 4) % 4) + 1) := by
  intro n
  induction n with
  | zero =>
    intro h r dd b i hb hi
    refine (congrFun (accStep_eq V c ⟨0, h⟩ (k1_pay1 (F := Ideal)) (fun h0 => absurd h0 (Nat.lt_irrefl 0))).symm (ix2 r dd)).trans ?_
    rw [qiOf_eq, kiOf_eq]
    exact accStep_apply V c ⟨0, h⟩ r dd b i hb hi (k1_pay1 (F := Ideal)) (fun h0 => absurd rfl h0)
  | succ n ih =>
    intro h r dd b i hb hi
    have hN : cfg1.N = 128 := N_1
    refine (congrFun (accStep_eq V c ⟨n + 1, h⟩ (accAfter V c n (Nat.lt_of_succ_lt h)) (fun _ => rfl)).symm (ix2 r dd)).trans ?_
    rw [qiOf_eq, kiOf_eq]
    refine accStep_apply V c ⟨n + 1, h⟩ r dd b i hb hi _ (fun h0 => ?_)
    have h0' : (n + 1) % 4 ≠ 0 := h0
    show accAfter V c n _ (ix2 r dd) = partAtt (Qof V c) b i dd (min ((n + 1) % 4 - 1) (((n + 1) / 4) % 4) + 1)
    rw [ih (Nat.lt_of_succ_lt h) r dd b i (by omega) (by omega)]
    exact congrArg (partAtt (Qof V c) b i dd) (by omega)

/-- After point `t` the accumulator's row `r` holds the attention sum of row `512·qi + r` over the k-blocks up to
    `min ki qi`. -/
theorem accAfter_apply (c : Dev nD) (t : Fin cfg1.N) (r : Fin 512) (dd : Fin 1024) (b : Fin 8) (i : Fin 2048)
    (hb : b.val = t.val / 16) (hi : i.val = 512 * ((t.val / 4) % 4) + r.val) :
    accAfter V c t.val t.isLt (ix2 r dd) = partAtt (Qof V c) b i dd (min (t.val % 4) ((t.val / 4) % 4) + 1) :=
  accAfter_apply_nat V c t.val t.isLt r dd b i hb hi

end

end Cert.KernelIdeal.Hand

end
-- ==== Proof.PayNorm.lean ====
/-
  The normalisation arithmetic of the second kernel body, read entry by entry over the extended reals.

  On a diagonal block the body holds a 512 × 1024 accumulator. It takes each row's mean (the row's sum divided by
  1024), each row's variance (the mean of the squared deviations from the row's mean), and stores, for row r and
  column dd, the deviation times the reciprocal square root of (variance + eps), times the scale weight at dd, plus
  the shift weight at dd. That is the specification's `ln` applied to row r of the accumulator.
-/
import proofs.«425932_j16990890623046_3_alg».proof.Proof.Gen.KernelIdeal.Skeleton
import proofs.«425932_j16990890623046_3_alg».proof.Proof.Spec
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Pay

open Idealize.ShloMosaic Idealize.SL.Sem Idealize.ShloMosaic.ValueIdx
open Cert.KernelIdeal Cert.KernelIdeal.Gen

/-! ## Layout operations of a kept unit column, read at an index -/

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The lane sum of a 512 × 1024 block over its second axis, started from the zero word, is at row `r` the sum of
    that row's 1024 entries. -/
theorem rowSum_apply (v : FVec Ideal S512x1024 .f32) (hacc : (0x00000000#32 : BitVec 32) = 0x00000000#32) (r : Fin 512) :
    multiReduction (F := Ideal) .add [1] S512 v 0x00000000#32 reduces_S512x1024_S512 (.inl rfl) hacc (ix1 r)
      = ∑ d : Fin 1024, v (ix2 r d) := by
  refine (Ideal.multiReduction_add_single v 0x00000000#32 reduces_S512x1024_S512 (.inl rfl) hacc (ix1 r)).trans ?_
  refine Finset.sum_congr rfl fun d _ => congrArg v ?_
  funext ax
  match ax with
  | ⟨0, _⟩ => rfl
  | ⟨1, _⟩ => rfl

/-! ## The payloads at an index -/

/-- The first payload is each row's mean. -/
theorem pay5_apply (a : Vec Ideal S512x1024 .f32) (r : Fin 512) (u : Fin 1) :
    k1_pay5 (F := Ideal) a (ix2 r u) = Cert.Spec.mean (fun d => a (ix2 r d)) := by
  unfold k1_pay5 Cert.Spec.mean Cert.Spec.n1024
  rw [divf_apply, shapeCast_a_a1_apply, rowSum_apply, broadcast_apply]
  rfl

/-- The centred rows: each entry minus its row's mean. -/
theorem pay7_apply (a : Vec Ideal S512x1024 .f32) (r : Fin 512) (d : Fin 1024) :
    k1_pay7 (F := Ideal) a (ix2 r d) = a (ix2 r d) - Cert.Spec.mean (fun d' => a (ix2 r d')) := by
  unfold k1_pay7
  rw [subf_apply, broadcastTo_a1_ab_apply, pay5_apply]

/-- The second payload is each row's variance. -/
theorem pay6_apply (a : Vec Ideal S512x1024 .f32) (r : Fin 512) (u : Fin 1) :
    k1_pay6 (F := Ideal) a (ix2 r u) = Cert.Spec.var (fun d => a (ix2 r d)) := by
  unfold k1_pay6 Cert.Spec.var Cert.Spec.n1024
  rw [divf_apply, shapeCast_a_a1_apply, rowSum_apply, broadcast_apply]
  simp only [mulf_apply, subf_apply, broadcastTo_a1_ab_apply, pay5_apply]
  rfl

/-- The stored block is the row-normalised accumulator, scaled and shifted. -/
theorem pay3_apply (a : Vec Ideal S512x1024 .f32) (w s : Vec Ideal S1x1024 .f32) (r : Fin 512) (dd : Fin 1024) :
    k1_pay3 (F := Ideal) (k1_pay6 a) (k1_pay7 a) (Scalar.ofBits .f32 0x3727C5AC#32) w s (ValueIdx.ix3 (0 : Fin 1) r dd)
      = Cert.Spec.ln (fun d => a (ValueIdx.ix2 r d)) (fun d => w (ValueIdx.ix2 (0 : Fin 1) d)) (fun d => s (ValueIdx.ix2 (0 : Fin 1) d)) dd := by
  unfold k1_pay3 Cert.Spec.ln Cert.Spec.eps
  rw [shapeCast_ab_1ab_apply, addf_apply, mulf_apply, mulf_apply, broadcastTo_a1_ab_apply,
    broadcastTo_1b_ab_apply, broadcastTo_1b_ab_apply, shapeCast_self, shapeCast_self, pay7_apply]
  show _ * Ideal.rsqrt (k1_pay6 (F := Ideal) a (ix2 r (0 : Fin 1)) + Ideal.ofBits .f32 0x3727C5AC#32) * _ + _ = _
  rw [pay6_apply]

end Cert.KernelIdeal.Pay

end
-- ==== Proof.KI.Value1.lean ====
import proofs.«425932_j16990890623046_3_alg».proof.Proof.KI.ValueDefs
import proofs.«425932_j16990890623046_3_alg».proof.Proof.KI.Blocks1
import proofs.«425932_j16990890623046_3_alg».proof.Proof.KI.Acc1
import proofs.«425932_j16990890623046_3_alg».proof.Proof.PayNorm
import Idealize.ShloMosaic.Lib.Pipeline.FrameBody
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A sum over the 2048 rows is the sum over the four k-blocks of the sums over each block's 512 rows. -/
theorem v1_sum_rows (f : Fin 2048 → EReal) :
    ∑ j : Fin 2048, f j = ∑ kb : Fin 4, ∑ jj : Fin 512, f (rowOf kb jj) := by
  rw [← Fintype.sum_prod_type' (fun kb jj => f (rowOf kb jj))]
  refine (Fintype.sum_equiv (finProdFinEquiv (m := 4) (n := 512)) (fun p => f (rowOf p.1 p.2)) f fun p => ?_).symm
  refine congrArg f (Fin.ext ?_)
  show 512 * p.1.val + p.2.val = p.2.val + 512 * p.1.val
  omega

section
variable (V : (c : Dev nD) → (b : Ref sig .tc) → Buf (Elt Ideal) ((c : Thread nD τ).loc b))

/-- The attention sum over the k-blocks up to row `i`'s own is the whole sum: the later blocks contribute zero. -/
theorem partAtt_full (Q : Fin 8 → Fin 2048 → Fin 3072 → EReal) (b : Fin 8) (i : Fin 2048) (dd : Fin 1024) :
    partAtt Q b i dd (i.val / 512 + 1) = Cert.Spec.att Q b i dd := by
  unfold partAtt Cert.Spec.att
  rw [v1_sum_rows]
  refine Finset.sum_congr rfl fun kb _ => ?_
  by_cases h : kb.val < i.val / 512 + 1
  · rw [if_pos h]; rfl
  · -- a later k-block: every one of its rows comes after row `i`, so every summand is zero
    rw [if_neg h]
    refine (Finset.sum_eq_zero fun jj _ => ?_).symm
    have hlt : ¬ (rowOf kb jj).val ≤ i.val := by
      show ¬ (512 * kb.val + jj.val ≤ i.val)
      omega
    rw [if_neg hlt, zero_mul]

/-- Entry `dd` of row `i` of batch `b` of the result: the normalised causal attention row. -/
def v1_outRow (c : Dev nD) (b : Fin 8) (i : Fin 2048) (dd : Fin 1024) : EReal :=
  Cert.Spec.ln (fun d => Cert.Spec.att (Qof V c) b i d) (fun d => V c main_v5 (ix2 (0 : Fin 1) d))
    (fun d => V c main_v6 (ix2 (0 : Fin 1) d)) dd

/-- The result array as one function of its index. -/
def v1_G5 (c : Dev nD) : S8x2048x1024.Idx → EReal := fun x => v1_outRow V c (x 0) (x 1) (x 2)

/-- The normalised accumulator of a diagonal point `u`, at row `r` and column `dd`: the accumulator's row is the whole
    attention sum of row `512·qi + r` (on the diagonal the k-blocks up to `qi` are all that row attends to), and the
    two weight blocks are the weight arrays. -/
theorem v1_outOf_apply (c : Dev nD) (u : Fin cfg1.N) (hu : u.val % 4 = (u.val / 4) % 4) (r : Fin 512) (dd : Fin 1024)
    (b : Fin 8) (i : Fin 2048) (hb : b.val = u.val / 16) (hi : i.val = 512 * ((u.val / 4) % 4) + r.val) :
    outOf V c u (ix3 (0 : Fin 1) r dd) = v1_outRow V c b i dd := by
  unfold outOf v1_outRow
  refine (Pay.pay3_apply _ _ _ r dd).trans ?_
  have h1 : (fun d => accAfter V c u.val u.isLt (ix2 r d)) = fun d => Cert.Spec.att (Qof V c) b i d := by
    funext d
    rw [accAfter_apply V c u r d b i hb hi]
    have hn : min (u.val % 4) ((u.val / 4) % 4) + 1 = i.val / 512 + 1 := by
      have := r.isLt
      omega
    rw [hn]
    exact partAtt_full (Qof V c) b i d
  have h3 : (fun d => iblk1 V c 3 u (ix2 (0 : Fin 1) d)) = fun d => V c main_v5 (ix2 (0 : Fin 1) d) :=
    funext fun d => blk1_3 V c u d
  have h4 : (fun d => iblk1 V c 4 u (ix2 (0 : Fin 1) d)) = fun d => V c main_v6 (ix2 (0 : Fin 1) d) :=
    funext fun d => blk1_4 V c u d
  rw [h1, h3, h4]

/-- The output window's block index at point `t`, decided over the grid: batch `t / 16`, q-block `(t / 4) % 4`, column block 0. -/
theorem v1_idx_facts5 : ∀ t : Fin cfg1.N, win1_5.index t (0 : Fin 3) = t.val / 16
    ∧ win1_5.index t (1 : Fin 3) = (t.val / 4) % 4 ∧ win1_5.index t (2 : Fin 3) = 0 :=
  (by decide +kernel : ∀ t : Fin grid1.N, win1_5.index t (0 : Fin 3) = t.val / 16
    ∧ win1_5.index t (1 : Fin 3) = (t.val / 4) % 4 ∧ win1_5.index t (2 : Fin 3) = 0)

/-- An index of the array is in point `t`'s block iff each coordinate is in the block's range on its axis. -/
theorem v1_mem_blk5 (t : Fin cfg1.N) (x : S8x2048x1024.Idx) :
    x ∈ ((cfg1.win 5).blk t).view.set ↔ ∀ a : Fin 3, win1_5.index t a * S1x512x1024.size a ≤ (x a).val
      ∧ (x a).val < win1_5.index t a * S1x512x1024.size a + S1x512x1024.size a := by
  show x ∈ ((View.whole main_v7).slice (win1_5.rect t)).set ↔ _
  rw [View.set_slice_whole, Rect.mem_set_unit]
  exact Iff.rfl

/-- What a point that writes the output block back writes is its block of the one array function `v1_G5`. -/
theorem v1_flushed5_eq (c : Dev nD) (t : Fin cfg1.N) (hf : (cfg1.win 5).flush t = true) :
    (dat1 V c).flushed 5 t = ((cfg1.win 5).blk t).view.read (Elt Ideal) (v1_G5 V c) := by
  have h3 : t.val % 4 = 3 := (flush1_5 t).mp hf
  have hN : cfg1.N = 128 := N_1
  have htl := t.isLt
  show (cfg1.win 5).cut (grid1.coords t) ((dat1 V c).after 5 t) = _
  rw [after1_5]
  obtain ⟨e0, e1, e2⟩ := v1_idx_facts5 t
  funext j
  have hj0 : (j 0).val < 1 := (j 0).isLt
  have hj1 : (j 1).val < 512 := (j 1).isLt
  have hj2 : (j 2).val < 1024 := (j 2).isLt
  -- the block coordinate, and the array index under it
  have hx : (cfg1.win 5).xinj (grid1.coords t) j = ix3 (0 : Fin 1) (⟨(j 1).val, hj1⟩ : Fin 512) (⟨(j 2).val, hj2⟩ : Fin 1024) := by
    funext a
    match a with
    | ⟨0, _⟩ => exact Fin.ext (by show (j 0).val = 0; omega)
    | ⟨1, _⟩ => rfl
    | ⟨2, _⟩ => rfl
  have hE : ((cfg1.win 5).blk t).view.emb j
      = ix3 (⟨t.val / 16, by omega⟩ : Fin 8) (⟨512 * ((t.val / 4) % 4) + (j 1).val, by omega⟩ : Fin 2048) (⟨(j 2).val, hj2⟩ : Fin 1024) := by
    funext a
    apply Fin.ext
    match a with
    | ⟨0, _⟩ => show win1_5.index t (0 : Fin 3) * 1 + 1 * (j 0).val = t.val / 16; omega
    | ⟨1, _⟩ => show win1_5.index t (1 : Fin 3) * 512 + 1 * (j 1).val = 512 * ((t.val / 4) % 4) + (j 1).val; omega
    | ⟨2, _⟩ => show win1_5.index t (2 : Fin 3) * 1024 + 1 * (j 2).val = (j 2).val; omega
  show outAt V c t ((cfg1.win 5).xinj (grid1.coords t) j) = v1_G5 V c (((cfg1.win 5).blk t).view.emb j)
  rw [hx, hE]
  unfold outAt
  -- the diagonal point of the run: the same batch and q-block, its k-block the q-block
  have hd : (tdiag t).val / 4 = t.val / 4 := by
    show (4 * (t.val / 4) + (t.val / 4) % 4) / 4 = t.val / 4
    omega
  have hm : (tdiag t).val % 4 = (t.val / 4) % 4 := by
    show (4 * (t.val / 4) + (t.val / 4) % 4) % 4 = (t.val / 4) % 4
    omega
  refine v1_outOf_apply V c (tdiag t) ?_ _ _ _ _ ?_ ?_
  · rw [hd, hm]
  · show t.val / 16 = (tdiag t).val / 16
    omega
  · show 512 * ((t.val / 4) % 4) + (j 1).val = 512 * (((tdiag t).val / 4) % 4) + (j 1).val
    rw [hd]

/-- Every index of the result array lies in the block of a point that writes it back: the last point of its batch's
    and q-block's run of k-blocks. -/
theorem v1_cover5 (x : S8x2048x1024.Idx) :
    ∃ t : Fin cfg1.N, (cfg1.win 5).flush t = true ∧ x ∈ ((cfg1.win 5).blk t).view.set := by
  have hN : cfg1.N = 128 := N_1
  have hx0 : (x 0).val < 8 := (x 0).isLt
  have hx1 : (x 1).val < 2048 := (x 1).isLt
  have hx2 : (x 2).val < 1024 := (x 2).isLt
  have hlt : 16 * (x 0).val + 4 * ((x 1).val / 512) + 3 < cfg1.N := by omega
  obtain ⟨e0, e1, e2⟩ := v1_idx_facts5 ⟨16 * (x 0).val + 4 * ((x 1).val / 512) + 3, hlt⟩
  have e0' : win1_5.index ⟨16 * (x 0).val + 4 * ((x 1).val / 512) + 3, hlt⟩ (0 : Fin 3) = (16 * (x 0).val + 4 * ((x 1).val / 512) + 3) / 16 := e0
  have e1' : win1_5.index ⟨16 * (x 0).val + 4 * ((x 1).val / 512) + 3, hlt⟩ (1 : Fin 3) = ((16 * (x 0).val + 4 * ((x 1).val / 512) + 3) / 4) % 4 := e1
  refine ⟨⟨16 * (x 0).val + 4 * ((x 1).val / 512) + 3, hlt⟩, ?_, ?_⟩
  · refine (flush1_5 _).mpr ?_
    show (16 * (x 0).val + 4 * ((x 1).val / 512) + 3) % 4 = 3
    omega
  · rw [v1_mem_blk5]
    intro a
    match a with
    | ⟨0, _⟩ =>
      show win1_5.index _ (0 : Fin 3) * 1 ≤ (x 0).val ∧ (x 0).val < win1_5.index _ (0 : Fin 3) * 1 + 1
      rw [e0']; omega
    | ⟨1, _⟩ =>
      show win1_5.index _ (1 : Fin 3) * 512 ≤ (x 1).val ∧ (x 1).val < win1_5.index _ (1 : Fin 3) * 512 + 512
      rw [e1']; omega
    | ⟨2, _⟩ =>
      show win1_5.index _ (2 : Fin 3) * 1024 ≤ (x 2).val ∧ (x 2).val < win1_5.index _ (2 : Fin 3) * 1024 + 1024
      rw [e2]; omega

/-- What the second call leaves in its output array: the normalised causal attention of the projected array. -/
theorem arrAt1_5 (c : Dev nD) (b : Fin 8) (i : Fin 2048) (dd : Fin 1024) :
    (dat1 V c).arrAt 5 cfg1.N (ix3 b i dd)
      = Cert.Spec.ln (fun d => Cert.Spec.att (Qof V c) b i d) (fun d => V c main_v5 (ix2 (0 : Fin 1) d)) (fun d => V c main_v6 (ix2 (0 : Fin 1) d)) dd := by
  have h := (dat1 V c).arrAt_eq_of_cover 5 (v1_G5 V c) (fun t hf => v1_flushed5_eq V c t hf) (v1_cover5)
  rw [h]
  rfl

end

end Cert.KernelIdeal.Hand

end
-- ==== Proof.Bridge.lean ====
/-
  The kernel program's result is the specification: the second call's output array is the normalised causal attention of
  the array it reads (a reshape of the first call's output), the first call's output array is the projection of the
  flattened input, and the host operations between them are reshapes and a change of float format, which at the
  extended reals move or keep every entry.
-/
import proofs.«425932_j16990890623046_3_alg».proof.Proof.KI.Run
import proofs.«425932_j16990890623046_3_alg».proof.Proof.KI.HostVals
import proofs.«425932_j16990890623046_3_alg».proof.Proof.KI.Value0
import proofs.«425932_j16990890623046_3_alg».proof.Proof.KI.Value1
import proofs.«425932_j16990890623046_3_alg».proof.Proof.Spec
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The array the second call reads is the projection of the input: entry `e` of row `t` of batch `b`. -/
theorem Qof_eq (c : Dev nD) (b : Fin 8) (t : Fin 2048) (e : Fin 3072) :
    Qof (VB m) c b t e
      = Cert.Spec.qkv (m ((c : Thread nD τ).loc main_arg0)) (m ((c : Thread nD τ).loc main_arg1)) (m ((c : Thread nD τ).loc main_arg2)) b t e := by
  have hrr : 2048 * b.val + t.val < 16384 := by have := b.isLt; have := t.isLt; omega
  show VB m c main_v4 (ix3 b t e) = _
  rw [hv4 m c b t e ⟨2048 * b.val + t.val, hrr⟩ rfl]
  show (dat0 (VA m) c).arrAt 3 cfg0.N (ix2 _ e) = _
  rw [arrAt0_3 (VA m) c ⟨2048 * b.val + t.val, hrr⟩ e]
  unfold Cert.Spec.qkv
  congr 1
  · exact Finset.sum_congr rfl fun d _ =>
      congrArg₂ (fun x y : EReal => x * y) (hv0 m c b t d ⟨2048 * b.val + t.val, hrr⟩ rfl) (hv2 m c e d)
  · exact hv1 m c e

/-- The kernel program's result, entry by entry, is the specification of the argument arrays. -/
theorem kernel_out (c : Dev nD) (b : Fin 8) (i : Fin 2048) (dd : Fin 1024) :
    o4 m c (ix3 b i dd)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) b i dd := by
  show (dat1 (VB m) c).arrAt 5 cfg1.N (ix3 b i dd) = _
  rw [arrAt1_5 (VB m) c b i dd]
  unfold Cert.Spec.out
  have hQ : Qof (VB m) c = Cert.Spec.qkv (m ((c : Thread nD τ).loc main_arg0)) (m ((c : Thread nD τ).loc main_arg1)) (m ((c : Thread nD τ).loc main_arg2)) :=
    funext fun b => funext fun t => funext fun e => Qof_eq m c b t e
  rw [hQ]
  congr 1
  · exact funext fun d => hv5 m c d
  · exact funext fun d => hv6 m c d

end Cert.KernelIdeal.Hand

end
-- ==== Proof.RefValue.lean ====
/-
  The reference program read at an index, stage by stage, as the specification's function of the five arguments.

  The projection x·Wᵀ + b at (b, t, e) is Spec.qkv; its three column thirds are the query, key and value columns.
  The batched score at (b, i, j) is Spec.score, and its quotient by the constant 11863283/8192 is the product with the
  reciprocal 8192/11863283 (Spec.cs). The lower-triangular mask at (i, j) is 1 when j ≤ i and 0 otherwise, so the
  masked, scaled score is the scaled score on and below the diagonal and 0 above it (x * 1 = x and x * 0 = 0 hold for
  every extended real). The batched product with the value third sums over the rows j, which is Spec.att. The row
  normalisation (mean, variance, reciprocal square root, scale and shift) is Spec.ln of the row of Spec.att.
-/
import proofs.«425932_j16990890623046_3_alg».proof.Proof.Gen.ReferenceIdeal.Run
import proofs.«425932_j16990890623046_3_alg».proof.Proof.Gen.ReferenceIdeal.Read
import proofs.«425932_j16990890623046_3_alg».proof.Proof.Spec
import Idealize.ShloMosaic.Lib.IdealHost
import Idealize.ShloMosaic.Lib.StableHlo.Predicate

noncomputable section

open scoped BigOperators

namespace Cert.RefValue

open Idealize.ShloMosaic Idealize.ShloMosaic.ValueIdx Idealize.ShloMosaic.TcCoe Idealize.SL.Sem Cert.ReferenceIdeal Cert.ReferenceIdeal.Read

/-- The divisor's word 0x44B504F3 has exponent field 137 and fraction 3474675: it denotes
    (2²³ + 3474675) · 2^(137 − 127 − 23) = 11863283/8192. -/
theorem ofBits_divisor : Ideal.ofBits .f32 0x44B504F3#32 = ((11863283 / 8192 : ℝ) : EReal) := by
  simp [Ideal.ofBits, Ideal.ieee, -EReal.coe_mul]; norm_num

section Stages

variable (x0 : (⟨S8x2048x1024, .f32⟩ : BufTy).Contents (Elt Ideal)) (x1 : (⟨S3072x1024, .f32⟩ : BufTy).Contents (Elt Ideal))
  (x2 : (⟨S3072, .f32⟩ : BufTy).Contents (Elt Ideal)) (x3 x4 : (⟨S1024, .f32⟩ : BufTy).Contents (Elt Ideal))

/-- The projection at (b, t, e): row t of batch b against row e of the weight, plus the bias at e. -/
theorem proj_apply (b : Fin 8) (t : Fin 2048) (e : Fin 3072) :
    val_main_v3 (F := Ideal) x0 x1 x2 (ix3 b t e) = Spec.qkv x0 x1 x2 b t e := by
  rw [val_main_v3_apply, val_main_v0_apply, val_main_v2_apply, val_main_v1_apply]
  simp only [Ideal.addf_def]
  unfold Spec.qkv
  have hb : idx_main_v1 (idx_main_v2 (ix3 b t e)) = ix1 e := funext fun a => match a with | ⟨0, _⟩ => rfl
  rw [hb]
  refine congrArg (· + _) (Finset.sum_congr rfl fun k _ => ?_)
  have hl : lidx_main_v0 (ix3 b t e) k = ix3 b t k :=
    funext fun a => match a with | ⟨0, _⟩ => rfl | ⟨1, _⟩ => rfl | ⟨2, _⟩ => rfl
  have hr : ridx_main_v0 (ix3 b t e) k = ix2 e k := funext fun a => match a with | ⟨0, _⟩ => rfl | ⟨1, _⟩ => rfl
  rw [hl, hr]

/-- The first column third is the query column. -/
theorem q_apply (b : Fin 8) (t : Fin 2048) (d : Fin 1024) :
    val_main_v4 (F := Ideal) x0 x1 x2 (ix3 b t d) = Spec.qkv x0 x1 x2 b t (Spec.qcol d) := by
  rw [val_main_v4_apply]
  have h : idx_main_v4 (ix3 b t d) = ix3 b t (Spec.qcol d) :=
    funext fun a => match a with | ⟨0, _⟩ => rfl | ⟨1, _⟩ => rfl | ⟨2, _⟩ => rfl
  rw [h, proj_apply]

/-- The second column third is the key column. -/
theorem k_apply (b : Fin 8) (t : Fin 2048) (d : Fin 1024) :
    val_main_v5 (F := Ideal) x0 x1 x2 (ix3 b t d) = Spec.qkv x0 x1 x2 b t (Spec.kcol d) := by
  rw [val_main_v5_apply]
  have h : idx_main_v5 (ix3 b t d) = ix3 b t (Spec.kcol d) :=
    funext fun a => match a with | ⟨0, _⟩ => rfl | ⟨1, _⟩ => rfl | ⟨2, _⟩ => rfl
  rw [h, proj_apply]

/-- The last column third is the value column. -/
theorem v_apply (b : Fin 8) (t : Fin 2048) (d : Fin 1024) :
    val_main_v6 (F := Ideal) x0 x1 x2 (ix3 b t d) = Spec.qkv x0 x1 x2 b t (Spec.vcol d) := by
  rw [val_main_v6_apply]
  have h : idx_main_v6 (ix3 b t d) = ix3 b t (Spec.vcol d) :=
    funext fun a => match a with | ⟨0, _⟩ => rfl | ⟨1, _⟩ => rfl | ⟨2, _⟩ => rfl
  rw [h, proj_apply]

/-- The batched score at (b, i, j): row i's query against row j's key. -/
theorem score_apply (b : Fin 8) (i j : Fin 2048) :
    val_main_v7 (F := Ideal) x0 x1 x2 (ix3 b i j) = Spec.score (Spec.qkv x0 x1 x2) b i j := by
  rw [val_main_v7_apply]
  unfold Spec.score
  refine Finset.sum_congr rfl fun k _ => ?_
  have hl : lidx_main_v7 (ix3 b i j) k = ix3 b i k :=
    funext fun a => match a with | ⟨0, _⟩ => rfl | ⟨1, _⟩ => rfl | ⟨2, _⟩ => rfl
  have hr : ridx_main_v7 (ix3 b i j) k = ix3 b j k :=
    funext fun a => match a with | ⟨0, _⟩ => rfl | ⟨1, _⟩ => rfl | ⟨2, _⟩ => rfl
  rw [hl, hr, q_apply, k_apply]

/-- The quotient by 11863283/8192 is the product with 8192/11863283. -/
theorem scaled_apply (b : Fin 8) (i j : Fin 2048) :
    val_main_v9 (F := Ideal) x0 x1 x2 (ix3 b i j) = Spec.score (Spec.qkv x0 x1 x2) b i j * Spec.cs := by
  rw [val_main_v9_apply, val_main_v8_apply, val_main_cst_apply, score_apply]
  simp only [Ideal.hostDivf_def, Ideal.ofBits_def]
  rw [ofBits_divisor, Ideal.div_coe (by norm_num)]
  have hc : (1 / (11863283 / 8192) : ℝ) = 8192 / 11863283 := by norm_num
  rw [hc]; rfl

/-- The mask at (i, j): the row number i (plus the zero word) compared signed-greater-or-equal with the column number j
    selects the word of 1 or the word of 0; both numbers are below 2³¹, so the comparison is j ≤ i on the numbers. -/
theorem mask_apply (i j : Fin 2048) :
    val_main_v11 (F := Ideal) (ix2 i j) = if j.val ≤ i.val then (1 : EReal) else 0 := by
  rw [val_main_v11_apply, val_main_call0_v4_apply, val_main_call0_v2_apply, val_main_call0_v0_apply,
    val_main_call0_v1_apply, val_main_call0_c_apply, val_main_call0_v3_apply, val_main_v10_apply, val_main_cst_0_apply,
    val_main_call0_v5_apply, val_main_call0_cst_apply]
  simp only [Ideal.ofBits_def, Ideal.ofBits_zero_f32, Ideal.ofBits_one_f32]
  show Scalar.select (IntOp.cmpi .sge (IntOp.addi (BitVec.ofNat 32 i.val) 0#32) (BitVec.ofNat 32 j.val)) (1 : EReal) 0 = _
  have hz : IntOp.addi (BitVec.ofNat 32 i.val) 0#32 = BitVec.ofNat 32 i.val := BitVec.add_zero _
  rw [hz]
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have hc := StableHlo.Predicate.sge_iff_toNat (a := BitVec.ofNat 32 i.val) (b := BitVec.ofNat 32 j.val)
    (by rw [hi]; have := i.isLt; omega) (by rw [hj]; have := j.isLt; omega)
  rw [hi, hj] at hc
  by_cases h : j.val ≤ i.val
  · rw [hc.mpr h, if_pos h]; exact select_one _ _
  · rw [eq_zero_of_ne_one (fun e => h (hc.mp e)), if_neg h]; exact select_zero _ _

/-- The mask broadcast to the batch reads the mask at (i, j). -/
theorem maskb_apply (b : Fin 8) (i j : Fin 2048) :
    val_main_v13 (F := Ideal) (ix3 b i j) = if j.val ≤ i.val then (1 : EReal) else 0 := by
  rw [val_main_v13_apply, val_main_v12_apply]
  have h : idx_main_v12 (idx_main_v13 (ix3 b i j)) = ix2 i j :=
    funext fun a => match a with | ⟨0, _⟩ => rfl | ⟨1, _⟩ => rfl
  rw [h, mask_apply]

/-- The masked, scaled score: the scaled score where j ≤ i, zero elsewhere. -/
theorem masked_apply (b : Fin 8) (i j : Fin 2048) :
    val_main_v14 (F := Ideal) x0 x1 x2 (ix3 b i j)
      = if j.val ≤ i.val then Spec.score (Spec.qkv x0 x1 x2) b i j * Spec.cs else 0 := by
  rw [val_main_v14_apply, scaled_apply, maskb_apply]
  simp only [Ideal.mulf_def]
  by_cases h : j.val ≤ i.val
  · rw [if_pos h, if_pos h, mul_one]
  · rw [if_neg h, if_neg h, mul_zero]

/-- The batched product with the value third: the sum over the rows j. -/
theorem att_apply (b : Fin 8) (i : Fin 2048) (dd : Fin 1024) :
    val_main_v15 (F := Ideal) x0 x1 x2 (ix3 b i dd) = Spec.att (Spec.qkv x0 x1 x2) b i dd := by
  rw [val_main_v15_apply]
  unfold Spec.att
  refine Finset.sum_congr rfl fun k _ => ?_
  have hl : lidx_main_v15 (ix3 b i dd) k = ix3 b i k :=
    funext fun a => match a with | ⟨0, _⟩ => rfl | ⟨1, _⟩ => rfl | ⟨2, _⟩ => rfl
  have hr : ridx_main_v15 (ix3 b i dd) k = ix3 b k dd :=
    funext fun a => match a with | ⟨0, _⟩ => rfl | ⟨1, _⟩ => rfl | ⟨2, _⟩ => rfl
  rw [hl, hr, masked_apply, v_apply]

/-- The row's sum from the zero word, divided by the word of 1024: the mean of the row. -/
theorem mean_apply (b : Fin 8) (i : Fin 2048) (z : Fin 1) :
    val_main_v19 (F := Ideal) x0 x1 x2 (ix3 b i z)
      = Spec.mean (fun d => val_main_v15 (F := Ideal) x0 x1 x2 (ix3 b i d)) := by
  rw [val_main_v19_apply, val_main_v17_apply, val_main_v16_apply, val_main_cst_1_apply, val_main_v18_apply,
    val_main_cst_2_apply]
  simp only [Ideal.hostDivf_def, Ideal.ofBits_def, Ideal.ofBits_zero_f32, zero_add]
  unfold Spec.mean Spec.n1024
  refine congrArg (Ideal.div · _) (Finset.sum_congr rfl fun k _ => ?_)
  exact congrArg _ (funext fun a => match a with | ⟨0, _⟩ => rfl | ⟨1, _⟩ => rfl | ⟨2, _⟩ => rfl)

/-- The sum of the squared deviations from the mean, divided by the word of 1024: the variance of the row. -/
theorem var_apply (b : Fin 8) (i : Fin 2048) (z : Fin 1) :
    val_main_v26 (F := Ideal) x0 x1 x2 (ix3 b i z)
      = Spec.var (fun d => val_main_v15 (F := Ideal) x0 x1 x2 (ix3 b i d)) := by
  rw [val_main_v26_apply, val_main_v24_apply, val_main_v23_apply, val_main_cst_3_apply, val_main_v25_apply,
    val_main_cst_4_apply]
  simp only [Ideal.hostDivf_def, Ideal.ofBits_def, Ideal.ofBits_zero_f32, zero_add]
  unfold Spec.var Spec.n1024
  refine congrArg (Ideal.div · _) (Finset.sum_congr rfl fun k _ => ?_)
  have h : idx_main_v23 (idx_main_v24 (ix3 b i z)) k = ix3 b i k :=
    funext fun a => match a with | ⟨0, _⟩ => rfl | ⟨1, _⟩ => rfl | ⟨2, _⟩ => rfl
  have h0 : idx_main_v20 (ix3 b i k) = ix3 b i (0 : Fin 1) :=
    funext fun a => match a with | ⟨0, _⟩ => rfl | ⟨1, _⟩ => rfl | ⟨2, _⟩ => rfl
  rw [h, val_main_v22_apply, val_main_v21_apply, val_main_v20_apply, h0, mean_apply]
  simp only [Ideal.mulf_def, Ideal.subf_def]

/-- The reciprocal square root of the variance plus the small constant. -/
theorem rstd_apply (b : Fin 8) (i : Fin 2048) (z : Fin 1) :
    val_main_v31 (F := Ideal) x0 x1 x2 (ix3 b i z)
      = Ideal.rsqrt (Spec.var (fun d => val_main_v15 (F := Ideal) x0 x1 x2 (ix3 b i d)) + Spec.eps) := by
  rw [val_main_v31_apply, val_main_v30_apply, var_apply, val_main_v29_apply, val_main_cst_5_apply]
  simp only [Ideal.hostUnary_rsqrt_def, Ideal.addf_def, Ideal.ofBits_def]
  rfl

/-- The normalised row, scaled and shifted by the two weight vectors. -/
theorem norm_apply (b : Fin 8) (i : Fin 2048) (dd : Fin 1024) :
    val_main_v39 (F := Ideal) x0 x1 x2 x3 x4 (ix3 b i dd)
      = Spec.ln (fun d => val_main_v15 (F := Ideal) x0 x1 x2 (ix3 b i d)) (fun d => x3 (ix1 d)) (fun d => x4 (ix1 d)) dd := by
  rw [val_main_v39_apply, val_main_v36_apply, val_main_v33_apply, val_main_v28_apply, val_main_v27_apply,
    val_main_v32_apply, val_main_v35_apply, val_main_v34_apply, val_main_v38_apply, val_main_v37_apply]
  have h27 : idx_main_v27 (ix3 b i dd) = ix3 b i (0 : Fin 1) :=
    funext fun a => match a with | ⟨0, _⟩ => rfl | ⟨1, _⟩ => rfl | ⟨2, _⟩ => rfl
  have h32 : idx_main_v32 (ix3 b i dd) = ix3 b i (0 : Fin 1) :=
    funext fun a => match a with | ⟨0, _⟩ => rfl | ⟨1, _⟩ => rfl | ⟨2, _⟩ => rfl
  have h34 : idx_main_v34 (idx_main_v35 (ix3 b i dd)) = ix1 dd := funext fun a => match a with | ⟨0, _⟩ => rfl
  have h37 : idx_main_v37 (idx_main_v38 (ix3 b i dd)) = ix1 dd := funext fun a => match a with | ⟨0, _⟩ => rfl
  rw [h27, h32, h34, h37, mean_apply, rstd_apply]
  simp only [Ideal.addf_def, Ideal.mulf_def, Ideal.subf_def]
  rfl

end Stages

/-- The reference's result at (b, i, dd) is the specification's function of the five arguments. -/
theorem ref_eq (x0 : (⟨Cert.ReferenceIdeal.S8x2048x1024, .f32⟩ : BufTy).Contents (Elt Ideal)) (x1 : (⟨Cert.ReferenceIdeal.S3072x1024, .f32⟩ : BufTy).Contents (Elt Ideal)) (x2 : (⟨Cert.ReferenceIdeal.S3072, .f32⟩ : BufTy).Contents (Elt Ideal)) (x3 x4 : (⟨Cert.ReferenceIdeal.S1024, .f32⟩ : BufTy).Contents (Elt Ideal)) (b : Fin 8) (i : Fin 2048) (dd : Fin 1024) :
    Cert.ReferenceIdeal.Read.val_main_v39 (F := Ideal) x0 x1 x2 x3 x4 (ValueIdx.ix3 b i dd) = Cert.Spec.out x0 x1 x2 x3 x4 b i dd := by
  rw [norm_apply]
  have hy : (fun d => val_main_v15 (F := Ideal) x0 x1 x2 (ix3 b i d)) = fun d => Spec.att (Spec.qkv x0 x1 x2) b i d :=
    funext fun d => att_apply x0 x1 x2 b i d
  rw [hy]
  rfl

/-- The run's result buffer at (b, i, dd) is the specification's function of the launch contents of the five arguments. -/
theorem run_out (m : (ℓ : Loc Cert.ReferenceIdeal.nD Cert.ReferenceIdeal.τ Cert.ReferenceIdeal.sig) → Buf (Elt Ideal) ℓ) (c : Dev Cert.ReferenceIdeal.nD) (b : Fin 8) (i : Fin 2048) (dd : Fin 1024) :
    Cert.ReferenceIdeal.Value.res_main_v39 (F := Ideal) m c (ValueIdx.ix3 b i dd) = Cert.Spec.out (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) b i dd := by
  rw [Cert.ReferenceIdeal.Read.val_main_v39_eq]
  exact ref_eq _ _ _ _ _ b i dd

end Cert.RefValue

end
-- ==== Proof.lean ====
/-
  The certificate. Both kernel programs — the word-level one and its idealization, which differ in one scalar constant's
  reading — run to the end and keep their arguments: @main is host operations, a projection call, host operations, an
  attention-and-normalisation call, and each call's pipeline is followed point by point (Proof/K, Proof/KI). The reference
  is a straight line of host operations. The idealization names the scale constant 8192/11863283, the reciprocal of the
  reference's divisor 11863283/8192. At the extended reals the idealized kernel computes, block by block, the causal
  attention sums the reference computes whole, and the same row normalisation: both results are Cert.Spec.out of the
  arguments (Proof/Bridge for the kernel, Proof/RefValue for the reference).
-/
import proofs.«425932_j16990890623046_3_alg».proof.Defs
import proofs.«425932_j16990890623046_3_alg».proof.Proof.Gen.Kernel
import proofs.«425932_j16990890623046_3_alg».proof.Proof.Gen.KernelIdeal
import proofs.«425932_j16990890623046_3_alg».proof.Proof.Gen.ReferenceIdeal
import proofs.«425932_j16990890623046_3_alg».proof.Proof.Gen.ReferenceIdeal.Run
import proofs.«425932_j16990890623046_3_alg».proof.Proof.Gen.Pre_finite_inputs
import proofs.«425932_j16990890623046_3_alg».proof.Proof.K.Run
import proofs.«425932_j16990890623046_3_alg».proof.Proof.KI.Run
import proofs.«425932_j16990890623046_3_alg».proof.Proof.Bridge
import proofs.«425932_j16990890623046_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel program runs and keeps its arguments. -/
theorem frame_k : @Cert.frame_Kernel Cert.Kernel.Gen.facts Cert.Pre_finite_inputs.Gen.facts := fun m ρ _ =>
  (θ_run Cert.Kernel.defs _ _).mono (fun _ h c => ⟨(h c).1, (h c).2.1, (h c).2.2.1, (h c).2.2.2.1, (h c).2.2.2.2.1⟩)
    (Cert.Kernel.Hand.run_main (F := Bits) m ρ)

/-- So does its idealization. -/
theorem frame_ki : @Cert.frame_KernelIdeal Cert.KernelIdeal.Gen.facts Cert.Pre_finite_inputs.Gen.facts := fun m ρ _ =>
  (θ_run Cert.KernelIdeal.defs _ _).mono (fun _ h c => ⟨(h c).1, (h c).2.1, (h c).2.2.1, (h c).2.2.2.1, (h c).2.2.2.2.1⟩)
    (Cert.KernelIdeal.Hand.run_main (F := Ideal) m ρ)

/-- The reference is host operations only: its run, the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization's one rewrite, at its two sites: the scale constant is read as the rational the table gives it. -/
theorem preserves : Cert.preserves_Kernel_KernelIdeal :=
  ⟨IdealRules.named_const.statement Cert.KernelIdeal.κ "fold_c_8192_11863283" .f32 0x3A3504F3#32 ((8192 / 11863283 : ℝ) : EReal) rfl,
    IdealRules.named_const.statement Cert.KernelIdeal.κ "fold_c_8192_11863283" .f32 0x3A3504F3#32 ((8192 / 11863283 : ℝ) : EReal) rfl⟩

/-- From memories agreeing on the arguments both programs end with the same result: entry by entry it is the
    specification of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.o4 m c, ?_, ?_⟩
  · exact (θ_run Cert.KernelIdeal.defs _ _).mono
      (fun _ h c => ⟨(h c).2.2.2.2.2, (h c).1, (h c).2.1, (h c).2.2.1, (h c).2.2.2.1, (h c).2.2.2.2.1⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    funext j
    obtain ⟨b, i, dd, rfl⟩ : ∃ (b : Fin 8) (i : Fin 2048) (dd : Fin 1024), j = ix3 b i dd := ⟨j 0, j 1, j 2, eq_ix3 j⟩
    refine (Cert.RefValue.run_out m' c b i dd).trans ?_
    rw [(hagree c).1, (hagree c).2.1, (hagree c).2.2.1, (hagree c).2.2.2.1, (hagree c).2.2.2.2]
    exact (Cert.KernelIdeal.Hand.kernel_out m c b i dd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
